-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x128x128 : Shape := ⟨4, ![32, 256, 128, 128]⟩
abbrev S16x256 : Shape := ⟨2, ![16, 256]⟩
abbrev S256x16 : Shape := ⟨2, ![256, 16]⟩
abbrev S_ : Shape := ⟨0, ![]⟩

class Facts : Prop where
  bcast_S_S32x256x128x128 : S_.BroadcastsInDim S32x256x128x128 (![] : Fin 0 → Fin S32x256x128x128.rank)
  reducesTo_S32x256x128x128_S_d0_1_2_3 : S32x256x128x128.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S32x256x128x128 .f32) (main_arg1 : FVec F S16x256 .f32) (main_arg2 : FVec F S256x16 .f32) : IVec S_ 1 :=
  let main_v0 : FVec F S32x256x128x128 .f32 := Host.absf main_arg0
  let main_cst : FVec F S_ .f32 := constant S_ .f32 0x7F800000#32
  let main_v1 : FVec F S32x256x128x128 .f32 := broadcastInDim S32x256x128x128 ![] bcast_S_S32x256x128x128 main_cst
  let main_v2 : IVec S32x256x128x128 1 := cmpf .olt main_v0 main_v1
  let main_c : IVec S_ 1 := constantI S_ 1 1#1
  let main_v3 : IVec S_ 1 := (fun x v => Host.reduce IntOp.andi x v reducesTo_S32x256x128x128_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S256x16 .f32 := Host.absf main_arg2
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  main_v13
-- ==== Kernel.lean ====
abbrev S32x256x128x128 : Shape := ⟨4, ![32, 256, 128, 128]⟩
abbrev S16x256 : Shape := ⟨2, ![16, 256]⟩
abbrev S256x16 : Shape := ⟨2, ![256, 16]⟩
abbrev S32x256 : Shape := ⟨2, ![32, 256]⟩
abbrev S8x256x16x128 : Shape := ⟨4, ![8, 256, 16, 128]⟩
abbrev S8x256 : Shape := ⟨2, ![8, 256]⟩
abbrev S32x16 : Shape := ⟨2, ![32, 16]⟩
abbrev S_ : Shape := ⟨0, ![]⟩
abbrev S8x256x8x128 : Shape := ⟨4, ![8, 256, 8, 128]⟩
abbrev S8x256x1x1 : Shape := ⟨4, ![8, 256, 1, 1]⟩

abbrev nBuf : Space → Nat
  | .hbm => 18
  | .vmem => 11
  | .smem => 0
  | _ => 0

abbrev bufTy : (tb : Table) → Fin (tcTables nBuf tb) → BufTy
  | .hbm, ⟨0, _⟩ => ⟨S32x256x128x128, .f32⟩
  | .hbm, ⟨1, _⟩ => ⟨S16x256, .f32⟩
  | .hbm, ⟨2, _⟩ => ⟨S256x16, .f32⟩
  | .hbm, ⟨3, _⟩ => ⟨S32x256, .f32⟩
  | .hbm, ⟨4, _⟩ => ⟨S32x16, .f32⟩
  | .hbm, ⟨5, _⟩ => ⟨S_, .f32⟩
  | .hbm, ⟨6, _⟩ => ⟨S32x16, .f32⟩
  | .hbm, ⟨7, _⟩ => ⟨S32x16, .f32⟩
  | .hbm, ⟨8, _⟩ => ⟨S32x256, .f32⟩
  | .hbm, ⟨9, _⟩ => ⟨S32x256, .f32⟩
  | .hbm, ⟨10, _⟩ => ⟨S32x256, .f32⟩
  | .hbm, ⟨11, _⟩ => ⟨S_, .f32⟩
  | .hbm, ⟨12, _⟩ => ⟨S32x256, .f32⟩
  | .hbm, ⟨13, _⟩ => ⟨S32x256, .f32⟩
  | .hbm, ⟨14, _⟩ => ⟨S_, .f32⟩
  | .hbm, ⟨15, _⟩ => ⟨S32x256, .f32⟩
  | .hbm, ⟨16, _⟩ => ⟨S32x256, .f32⟩
  | .hbm, ⟨17, _⟩ => ⟨S32x256x128x128, .f32⟩
  | .local _ .vmem, ⟨0, _⟩ => ⟨S8x256x16x128, .f32⟩
  | .local _ .vmem, ⟨1, _⟩ => ⟨S8x256x16x128, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256x8x128, .f32⟩
  | .local _ .vmem, ⟨6, _⟩ => ⟨S8x256x8x128, .f32⟩
  | .local _ .vmem, ⟨7, _⟩ => ⟨S8x256, .f32⟩
  | .local _ .vmem, ⟨8, _⟩ => ⟨S8x256, .f32⟩
  | .local _ .vmem, ⟨9, _⟩ => ⟨S8x256x8x128, .f32⟩
  | .local _ .vmem, ⟨10, _⟩ => ⟨S8x256x8x128, .f32⟩
  | _, _ => ⟨S32x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_8 : BitVec 32 := 0#32
  let v12 : BitVec 1 := Scalar.cmpi .ne v11 c0_i32_8
  v12

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x256x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![4, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S8x256x8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x256x8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x256x16x128_S8x256x16x128_0_0_0_0 : ∀ a, (![0, 0, 0, 0] : Fin 4 → Nat) a + S8x256x16x128.size a ≤ S8x256x16x128.size a
  h_S8x256x16x128 : 0 < S8x256x16x128.numel
  reduces_S8x256x16x128_S8x256 : S8x256x16x128.Reduces [2, 3] S8x256
  bcast_S_S32x16 : S_.BroadcastsInDim S32x16 (![] : Fin 0 → Fin S32x16.rank)
  bcast_S_S32x256 : S_.BroadcastsInDim S32x256 (![] : Fin 0 → Fin S32x256.rank)
  inb_S8x256x8x128_S8x256x8x128_0_0_0_0 : ∀ a, (![0, 0, 0, 0] : Fin 4 → Nat) a + S8x256x8x128.size a ≤ S8x256x8x128.size a
  h_S8x256x8x128 : 0 < S8x256x8x128.numel
  shapeCasts_S8x256_S8x256x1x1 : S8x256.ShapeCasts S8x256x1x1
  broadcasts_S8x256x1x1_S8x256x8x128 : S8x256x1x1.Broadcasts S8x256x8x128
  dot_S32x256_S16x256_S32x16_1_1_0_0_n_n_wf : DotDims.WF S32x256 S16x256 S32x16 [1] [1] [0] [0] [] []
  dot_S32x16_S256x16_S32x256_1_1_0_0_n_n_wf : DotDims.WF S32x16 S256x16 S32x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x16x128.size a ≤ S32x256x128x128.size a
  hwx0_0 : ∀ i : grid0.Coords, EltTy.bits .f32 = 32 ∨ (Rect.block (s := S32x256x128x128) S8x256x16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S32x256.size a
  hwx0_1 : ∀ i : grid0.Coords, EltTy.bits .f32 = 32 ∨ (Rect.block (s := S32x256) S8x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x8x128.size a ≤ S32x256x128x128.size a
  hwx1_0 : ∀ i : grid1.Coords, EltTy.bits .f32 = 32 ∨ (Rect.block (s := S32x256x128x128) S8x256x8x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256.size a ≤ S32x256.size a
  hwx1_1 : ∀ i : grid1.Coords, EltTy.bits .f32 = 32 ∨ (Rect.block (s := S32x256) S8x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256x8x128.size a ≤ S32x256x128x128.size a
  hwx1_2 : ∀ i : grid1.Coords, EltTy.bits .f32 = 32 ∨ (Rect.block (s := S32x256x128x128) S8x256x8x128.size (cc1_transform_2 i) (hinb1_2 i)).WholeWords (EltTy.packing .f32)

variable [Facts₀]

def dot_S32x256_S16x256_S32x16_1_1_0_0_n_n : DotDims S32x256 S16x256 S32x16 where
  lhsContracting := [1]
  rhsContracting := [1]
  lhsNonContracting := [0]
  rhsNonContracting := [0]
  lhsBatch := []
  rhsBatch := []
  wf := dot_S32x256_S16x256_S32x16_1_1_0_0_n_n_wf
def dot_S32x16_S256x16_S32x256_1_1_0_0_n_n : DotDims S32x16 S256x16 S32x256 where
  lhsContracting := [1]
  rhsContracting := [1]
  lhsNonContracting := [0]
  rhsNonContracting := [0]
  lhsBatch := []
  rhsBatch := []
  wf := dot_S32x16_S256x16_S32x256_1_1_0_0_n_n_wf

abbrev win0_0 : Pipeline.Window sig grid0 :=
  Pipeline.Window.ofSpec (Memref.whole main_arg0) S8x256x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S8x256x8x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S8x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S8x256x8x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x256x128x128 : Shape := ⟨4, ![32, 256, 128, 128]⟩
abbrev S16x256 : Shape := ⟨2, ![16, 256]⟩
abbrev S256x16 : Shape := ⟨2, ![256, 16]⟩
abbrev S_ : Shape := ⟨0, ![]⟩
abbrev S32x256 : Shape := ⟨2, ![32, 256]⟩
abbrev S32x16 : Shape := ⟨2, ![32, 16]⟩
abbrev S32x256x1x1 : Shape := ⟨4, ![32, 256, 1, 1]⟩

abbrev nBuf : Space → Nat
  | .hbm => 24
  | .vmem => 0
  | .smem => 0
  | _ => 0

abbrev bufTy : (tb : Table) → Fin (tcTables nBuf tb) → BufTy
  | .hbm, ⟨0, _⟩ => ⟨S32x256x128x128, .f32⟩
  | .hbm, ⟨1, _⟩ => ⟨S16x256, .f32⟩
  | .hbm, ⟨2, _⟩ => ⟨S256x16, .f32⟩
  | .hbm, ⟨3, _⟩ => ⟨S_, .f32⟩
  | .hbm, ⟨4, _⟩ => ⟨S32x256, .f32⟩
  | .hbm, ⟨5, _⟩ => ⟨S_, .f32⟩
  | .hbm, ⟨6, _⟩ => ⟨S32x256, .f32⟩
  | .hbm, ⟨7, _⟩ => ⟨S32x256, .f32⟩
  | .hbm, ⟨8, _⟩ => ⟨S32x16, .f32⟩
  | .hbm, ⟨9, _⟩ => ⟨S_, .f32⟩
  | .hbm, ⟨10, _⟩ => ⟨S32x16, .f32⟩
  | .hbm, ⟨11, _⟩ => ⟨S32x16, .f32⟩
  | .hbm, ⟨12, _⟩ => ⟨S32x256, .f32⟩
  | .hbm, ⟨13, _⟩ => ⟨S32x256, .f32⟩
  | .hbm, ⟨14, _⟩ => ⟨S32x256, .f32⟩
  | .hbm, ⟨15, _⟩ => ⟨S_, .f32⟩
  | .hbm, ⟨16, _⟩ => ⟨S32x256, .f32⟩
  | .hbm, ⟨17, _⟩ => ⟨S32x256, .f32⟩
  | .hbm, ⟨18, _⟩ => ⟨S_, .f32⟩
  | .hbm, ⟨19, _⟩ => ⟨S32x256, .f32⟩
  | .hbm, ⟨20, _⟩ => ⟨S32x256, .f32⟩
  | .hbm, ⟨21, _⟩ => ⟨S32x256x1x1, .f32⟩
  | .hbm, ⟨22, _⟩ => ⟨S32x256x128x128, .f32⟩
  | .hbm, ⟨23, _⟩ => ⟨S32x256x128x128, .f32⟩
  | _, _ => ⟨S32x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  reducesTo_S32x256x128x128_S32x256_d2_3 : S32x256x128x128.ReducesTo [2, 3] S32x256
  h_S_ : 0 < S_.numel
  bcast_S_S32x256 : S_.BroadcastsInDim S32x256 (![] : Fin 0 → Fin S32x256.rank)
  bcast_S_S32x16 : S_.BroadcastsInDim S32x16 (![] : Fin 0 → Fin S32x16.rank)
  bcast_S32x256_S32x256x1x1_0_1 : S32x256.BroadcastsInDim S32x256x1x1 (![0, 1] : Fin 2 → Fin S32x256x1x1.rank)
  bcast_S32x256x1x1_S32x256x128x128_0_1_2_3 : S32x256x1x1.BroadcastsInDim S32x256x128x128 (![0, 1, 2, 3] : Fin 4 → Fin S32x256x128x128.rank)
  dot_S32x256_S16x256_S32x16_1_1_0_0_n_n_wf : DotDims.WF S32x256 S16x256 S32x16 [1] [1] [0] [0] [] []
  dot_S32x16_S256x16_S32x256_1_1_0_0_n_n_wf : DotDims.WF S32x16 S256x16 S32x256 [1] [1] [0] [0] [] []

variable [Facts₀]

def dot_S32x256_S16x256_S32x16_1_1_0_0_n_n : DotDims S32x256 S16x256 S32x16 where
  lhsContracting := [1]
  rhsContracting := [1]
  lhsNonContracting := [0]
  rhsNonContracting := [0]
  lhsBatch := []
  rhsBatch := []
  wf := dot_S32x256_S16x256_S32x16_1_1_0_0_n_n_wf
def dot_S32x16_S256x16_S32x256_1_1_0_0_n_n : DotDims S32x16 S256x16 S32x256 where
  lhsContracting := [1]
  rhsContracting := [1]
  lhsNonContracting := [0]
  rhsNonContracting := [0]
  lhsBatch := []
  rhsBatch := []
  wf := dot_S32x16_S256x16_S32x256_1_1_0_0_n_n_wf

class Facts : Prop extends Facts₀ where

variable [Facts]
-- ==== Proof.PoolRunsW.lean ====
/-
  The first launch sums the feature map over its two spatial axes, eight row-tiles per image block:
  at a tile the body adds the tile's 16×128 sums, channel by channel, to an 8×256 running total it
  keeps in a buffer of its own; at an image block's first tile it clears the total first, and at the
  last it stores the total times 2⁻¹⁴ into the output block. So a grid point is in one of three
  situations, told by its position among the eight tiles: FIRST (clear, then add), MIDDLE (add) and
  LAST (add, then store). This module runs the body once per situation: what it writes into the
  running total and into the output block is found by the run itself, as lists of stored pieces.
-/
import proofs.«104173_j50156628082926_1_alg».proof.Proof.Gen.Kernel.Launch
import proofs.«104173_j50156628082926_1_alg».proof.Proof.Gen.Kernel.Skeleton
import proofs.«104173_j50156628082926_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Which situation a point is in -/

/-- The point is an image block's first tile. -/
abbrev isFirst (i : grid0.Coords) : Prop := (Scalar.cmpi .ne (Scalar.extui (Scalar.cmpi .eq (BitVec.ofNat 32 (i 1).val) 0#32)) 0#32) = 1#1
/-- The first tiles are the points ≡ 0 (mod 8). -/
theorem isFirst_iff : ∀ t : Fin cfg0.N, isFirst (grid0.coords t) ↔ t.val % 8 = 0 :=
  (by decide +kernel : ∀ t : Fin grid0.N, isFirst (grid0.coords t) ↔ t.val % 8 = 0)

/-- The point is an image block's last tile. -/
abbrev isLast (i : grid0.Coords) : Prop := k0_cond2 i = 1#1
/-- The last tiles are the points ≡ 7 (mod 8). -/
theorem isLast_iff : ∀ t : Fin cfg0.N, isLast (grid0.coords t) ↔ t.val % 8 = 7 :=
  (by decide +kernel : ∀ t : Fin grid0.N, isLast (grid0.coords t) ↔ t.val % 8 = 7)

/-! ## Where the windows are live -/

theorem x_live : ∀ t : Fin cfg0.N, cfg0.idle 0 (grid0.coords t) = false := by decide +kernel
/-- Away from a last tile the output window is idle: nothing is stored into it, and it is not written back. -/
theorem out_idle_first : ∀ t : Fin cfg0.N, isFirst (grid0.coords t) → ¬isLast (grid0.coords t) → cfg0.idle 1 (grid0.coords t) = true := by decide +kernel
theorem out_noflush_first : ∀ t : Fin cfg0.N, isFirst (grid0.coords t) → ¬isLast (grid0.coords t) → (cfg0.win 1).flush t = false := by decide +kernel
theorem out_idle_middle : ∀ t : Fin cfg0.N, ¬isFirst (grid0.coords t) → ¬isLast (grid0.coords t) → cfg0.idle 1 (grid0.coords t) = true := by decide +kernel
theorem out_noflush_middle : ∀ t : Fin cfg0.N, ¬isFirst (grid0.coords t) → ¬isLast (grid0.coords t) → (cfg0.win 1).flush t = false := by decide +kernel
/-- At a last tile the output window is live. -/
theorem out_live_last : ∀ t : Fin cfg0.N, ¬isFirst (grid0.coords t) → isLast (grid0.coords t) → cfg0.idle 1 (grid0.coords t) = false := by decide +kernel

/-! ## The buffers the body is called on -/

/-- One staging buffer of the output window and the running total's buffer, as views through which contents are stated. -/
abbrev outView : View sig .tc .vmem S8x256 .f32 := (Memref.whole cc0_stg1_0 : Memref sig .tc .vmem S8x256 .f32).view
abbrev xBuf (t : Fin cfg0.N) : Memref sig .tc .vmem S8x256x16x128 .f32 := win0_0.stage (cfg0.slots t 0)
abbrev xBuf_whole (t : Fin cfg0.N) : (xBuf t).IsWhole := hstage0_0 ((cfg0.slots t 0).cast nbuf0_0)
abbrev outBuf (t : Fin cfg0.N) : Memref sig .tc .vmem S8x256 .f32 := win0_1.stage (cfg0.slots t 1)
abbrev outBuf_whole (t : Fin cfg0.N) : (outBuf t).IsWhole := hstage0_1 ((cfg0.slots t 1).cast nbuf0_1)
abbrev totalBuf : Memref sig .tc .vmem S8x256 .f32 := Memref.whole cc0_scratch0
abbrev totalView : View sig .tc .vmem S8x256 .f32 := totalBuf.view

/-- What the launch hands the body besides the windows: the running total's buffer at some contents, and the
    random-number register. -/
theorem rest_eq (c : Dev nD) :
    (Pipeline.ΦA spec0 c : sProp 𝕄)
      = iprop(iprop((∃ d, owns (c : Thread nD τ) totalBuf fullShare d) ∗ (∃ d, owns (c : Thread nD τ) (Memref.whole cc1_stg0_0) fullShare d) ∗ (∃ d, owns (c : Thread nD τ) (Memref.whole cc1_stg0_1) fullShare d) ∗ (∃ d, owns (c : Thread nD τ) (Memref.whole cc1_stg1_0) fullShare d) ∗ (∃ d, owns (c : Thread nD τ) (Memref.whole cc1_stg1_1) fullShare d) ∗ (∃ d, owns (c : Thread nD τ) (Memref.whole cc1_stg2_0) fullShare d) ∗ (∃ d, owns (c : Thread nD τ) (Memref.whole cc1_stg2_1) fullShare d)) ∗ (∃ r, prngReg c r)) := by
  unfold Pipeline.ΦA; rw [scopedRest0_eq]; simp only [totalBuf, owns_whole]; try rfl

/-! ## The three runs -/

set_option maxHeartbeats 1000000 in
/-- FIRST tile: from the feature block at `x`, the output buffer at `o` (handed back untouched) and the running
    total at anything, the body leaves the pieces `LS` written into the running total. -/
noncomputable def runFirst (c : Dev nD) (i : grid0.Coords) (arg2 : Memref sig .tc .vmem S8x256x16x128 .f32) (harg2 : arg2.IsWhole) (arg3 : Memref sig .tc .vmem S8x256 .f32) (harg3 : arg3.IsWhole) (arg4 : Memref sig .tc .vmem S8x256 .f32) (harg4 : arg4.IsWhole) (hc0 : isFirst i) (hc1 : ¬isLast i)
    (x : Vec F S8x256x16x128 .f32) :
    Σ' (L1 : List (View.Piece (Elt F) S8x256 .f32)), { LS : List (View.Piece (Elt F) S8x256 .f32) //
      ∀ (o : Vec F S8x256 .f32) (E : Set ℕ) (K : PUnit → sProp 𝕄),
        iprop(owns (c : Thread nD τ) arg2 fullShare x ∗ owns (c : Thread nD τ) arg3 fullShare o ∗ (∃ d, owns (c : Thread nD τ) arg4 fullShare d)
            ∗ (iprop(owns (c : Thread nD τ) arg2 fullShare x ∗ owns (c : Thread nD τ) arg3 fullShare o ∗ (∃ f, arg4.view.loc (c : Thread nD τ) ↦[arg4.view.set]{fullShare} arg4.view.writes (Elt F) f LS)) -∗ K ⟨⟩))
          ⊢ wp frame (wpE (defs₀ (F := F)) Variants.none c none) E (cc0__pool_kernel i arg2 harg2 arg3 harg3 arg4 harg4) K } := by
  refine ⟨[], ?_, fun o E K => ?run⟩
  case run =>
    simp only [cc0__pool_kernel_eq_skeleton]; unfold cc0__pool_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- MIDDLE tile: from the feature block at `x`, the output buffer at `o` (handed back untouched) and the running
    total at `s`, the body leaves the pieces `LS` written into the running total. -/
noncomputable def runMiddle (c : Dev nD) (i : grid0.Coords) (arg2 : Memref sig .tc .vmem S8x256x16x128 .f32) (harg2 : arg2.IsWhole) (arg3 : Memref sig .tc .vmem S8x256 .f32) (harg3 : arg3.IsWhole) (arg4 : Memref sig .tc .vmem S8x256 .f32) (harg4 : arg4.IsWhole) (hc0 : ¬isFirst i) (hc1 : ¬isLast i)
    (x : Vec F S8x256x16x128 .f32) (s : Vec F S8x256 .f32) :
    Σ' (L1 : List (View.Piece (Elt F) S8x256 .f32)), { LS : List (View.Piece (Elt F) S8x256 .f32) //
      ∀ (o : Vec F S8x256 .f32) (E : Set ℕ) (K : PUnit → sProp 𝕄),
        iprop(owns (c : Thread nD τ) arg2 fullShare x ∗ owns (c : Thread nD τ) arg3 fullShare o ∗ owns (c : Thread nD τ) arg4 fullShare s
            ∗ (iprop(owns (c : Thread nD τ) arg2 fullShare x ∗ owns (c : Thread nD τ) arg3 fullShare o ∗ (∃ f, arg4.view.loc (c : Thread nD τ) ↦[arg4.view.set]{fullShare} arg4.view.writes (Elt F) f LS)) -∗ K ⟨⟩))
          ⊢ wp frame (wpE (defs₀ (F := F)) Variants.none c none) E (cc0__pool_kernel i arg2 harg2 arg3 harg3 arg4 harg4) K } := by
  refine ⟨[], ?_, fun o E K => ?run⟩
  case run =>
    simp only [cc0__pool_kernel_eq_skeleton]; unfold cc0__pool_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- LAST tile: from the feature block at `x`, the output buffer at anything and the running total at `s`, the
    body leaves the pieces `L1` written into the output buffer and `LS` into the running total. -/
noncomputable def runLast (c : Dev nD) (i : grid0.Coords) (arg2 : Memref sig .tc .vmem S8x256x16x128 .f32) (harg2 : arg2.IsWhole) (arg3 : Memref sig .tc .vmem S8x256 .f32) (harg3 : arg3.IsWhole) (arg4 : Memref sig .tc .vmem S8x256 .f32) (harg4 : arg4.IsWhole) (hc0 : ¬isFirst i) (hc1 : isLast i)
    (x : Vec F S8x256x16x128 .f32) (s : Vec F S8x256 .f32) :
    Σ' (L1 : List (View.Piece (Elt F) S8x256 .f32)), { LS : List (View.Piece (Elt F) S8x256 .f32) //
      ∀ (E : Set ℕ) (K : PUnit → sProp 𝕄),
        iprop(owns (c : Thread nD τ) arg2 fullShare x ∗ (∃ d, owns (c : Thread nD τ) arg3 fullShare d) ∗ owns (c : Thread nD τ) arg4 fullShare s
            ∗ (iprop(owns (c : Thread nD τ) arg2 fullShare x ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS)) -∗ K ⟨⟩))
          ⊢ wp frame (wpE (defs₀ (F := F)) Variants.none c none) E (cc0__pool_kernel i arg2 harg2 arg3 harg3 arg4 harg4) K } := by
  refine ⟨?_, ?_, fun E K => ?run⟩
  case run =>
    simp only [cc0__pool_kernel_eq_skeleton]; unfold cc0__pool_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Pool

end
-- ==== Proof.PoolFrameW.lean ====
/-
  The first launch, point by point. With the three runs of the body in hand (first, middle and last tile
  of an image block), this module says what the running total and the output block hold after every grid
  point — by recursion on the point, a middle or last tile starting from what the tile before left —,
  carries the running total through the launch's invariant, and proves the obligation the launch asks of
  the body at every point. Everything is stated at any contents `V` of the core's buffers on entry.
-/
import proofs.«104173_j50156628082926_1_alg».proof.Proof.PoolRunsW

set_option maxRecDepth 16384

noncomputable section

namespace Cert.Kernel.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point sees -/

/-- The block of window `w`'s array that grid point `t` addresses, read off the entry contents. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature-map window holds its block at every point: it is refetched at each one. -/
theorem before_x_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-! ## What each situation leaves -/

/-- The pieces a first tile writes into the running total cover it. -/
theorem total_cover_first (c : Dev nD) (i : grid0.Coords) (arg2 : Memref sig .tc .vmem S8x256x16x128 .f32) (harg2 : arg2.IsWhole) (arg3 : Memref sig .tc .vmem S8x256 .f32) (harg3 : arg3.IsWhole) (arg4 : Memref sig .tc .vmem S8x256 .f32) (harg4 : arg4.IsWhole) (hc0 : isFirst i) (hc1 : ¬isLast i)
    (x : Vec F S8x256x16x128 .f32) (y : S8x256.Idx) :
    ∃ pc ∈ (runFirst c i arg2 harg2 arg3 harg3 arg4 harg4 hc0 hc1 x).2.1, y ∈ pc.1.set :=
  View.cover_of_tiledL (runFirst c i arg2 harg2 arg3 harg3 arg4 harg4 hc0 hc1 x).2.1 S8x256.size (by sl_kernel_rfl) y

/-- The running total after a first tile. -/
def totalFirst (c : Dev nD) (i : grid0.Coords) (arg2 : Memref sig .tc .vmem S8x256x16x128 .f32) (harg2 : arg2.IsWhole) (arg3 : Memref sig .tc .vmem S8x256 .f32) (harg3 : arg3.IsWhole) (arg4 : Memref sig .tc .vmem S8x256 .f32) (harg4 : arg4.IsWhole) (hc0 : isFirst i) (hc1 : ¬isLast i)
    (x : Vec F S8x256x16x128 .f32) : Vec F S8x256 .f32 :=
  totalView.read (Elt F) (totalView.writes (Elt F) totalView.junk (runFirst c i arg2 harg2 arg3 harg3 arg4 harg4 hc0 hc1 x).2.1)

theorem total_cover_middle (c : Dev nD) (i : grid0.Coords) (arg2 : Memref sig .tc .vmem S8x256x16x128 .f32) (harg2 : arg2.IsWhole) (arg3 : Memref sig .tc .vmem S8x256 .f32) (harg3 : arg3.IsWhole) (arg4 : Memref sig .tc .vmem S8x256 .f32) (harg4 : arg4.IsWhole) (hc0 : ¬isFirst i) (hc1 : ¬isLast i)
    (x : Vec F S8x256x16x128 .f32) (s : Vec F S8x256 .f32) (y : S8x256.Idx) :
    ∃ pc ∈ (runMiddle c i arg2 harg2 arg3 harg3 arg4 harg4 hc0 hc1 x s).2.1, y ∈ pc.1.set :=
  View.cover_of_tiledL (runMiddle c i arg2 harg2 arg3 harg3 arg4 harg4 hc0 hc1 x s).2.1 S8x256.size (by sl_kernel_rfl) y

/-- The running total after a middle tile, over what the tile before left (`s`). -/
def totalMiddle (c : Dev nD) (i : grid0.Coords) (arg2 : Memref sig .tc .vmem S8x256x16x128 .f32) (harg2 : arg2.IsWhole) (arg3 : Memref sig .tc .vmem S8x256 .f32) (harg3 : arg3.IsWhole) (arg4 : Memref sig .tc .vmem S8x256 .f32) (harg4 : arg4.IsWhole) (hc0 : ¬isFirst i) (hc1 : ¬isLast i)
    (x : Vec F S8x256x16x128 .f32) (s : Vec F S8x256 .f32) : Vec F S8x256 .f32 :=
  totalView.read (Elt F) (totalView.writes (Elt F) totalView.junk (runMiddle c i arg2 harg2 arg3 harg3 arg4 harg4 hc0 hc1 x s).2.1)

theorem total_cover_last (c : Dev nD) (i : grid0.Coords) (arg2 : Memref sig .tc .vmem S8x256x16x128 .f32) (harg2 : arg2.IsWhole) (arg3 : Memref sig .tc .vmem S8x256 .f32) (harg3 : arg3.IsWhole) (arg4 : Memref sig .tc .vmem S8x256 .f32) (harg4 : arg4.IsWhole) (hc0 : ¬isFirst i) (hc1 : isLast i)
    (x : Vec F S8x256x16x128 .f32) (s : Vec F S8x256 .f32) (y : S8x256.Idx) :
    ∃ pc ∈ (runLast c i arg2 harg2 arg3 harg3 arg4 harg4 hc0 hc1 x s).2.1, y ∈ pc.1.set :=
  View.cover_of_tiledL (runLast c i arg2 harg2 arg3 harg3 arg4 harg4 hc0 hc1 x s).2.1 S8x256.size (by sl_kernel_rfl) y

/-- The running total after a last tile. -/
def totalLast (c : Dev nD) (i : grid0.Coords) (arg2 : Memref sig .tc .vmem S8x256x16x128 .f32) (harg2 : arg2.IsWhole) (arg3 : Memref sig .tc .vmem S8x256 .f32) (harg3 : arg3.IsWhole) (arg4 : Memref sig .tc .vmem S8x256 .f32) (harg4 : arg4.IsWhole) (hc0 : ¬isFirst i) (hc1 : isLast i)
    (x : Vec F S8x256x16x128 .f32) (s : Vec F S8x256 .f32) : Vec F S8x256 .f32 :=
  totalView.read (Elt F) (totalView.writes (Elt F) totalView.junk (runLast c i arg2 harg2 arg3 harg3 arg4 harg4 hc0 hc1 x s).2.1)

/-- The one store of a last tile covers the output block. -/
theorem out_cover_last (c : Dev nD) (i : grid0.Coords) (arg2 : Memref sig .tc .vmem S8x256x16x128 .f32) (harg2 : arg2.IsWhole) (arg3 : Memref sig .tc .vmem S8x256 .f32) (harg3 : arg3.IsWhole) (arg4 : Memref sig .tc .vmem S8x256 .f32) (harg4 : arg4.IsWhole) (hc0 : ¬isFirst i) (hc1 : isLast i)
    (x : Vec F S8x256x16x128 .f32) (s : Vec F S8x256 .f32) (y : S8x256.Idx) :
    ∃ pc ∈ (runLast c i arg2 harg2 arg3 harg3 arg4 harg4 hc0 hc1 x s).1, y ∈ pc.1.set :=
  View.cover_of_tiledL (runLast c i arg2 harg2 arg3 harg3 arg4 harg4 hc0 hc1 x s).1 S8x256.size (by sl_kernel_rfl) y

/-- The output block after a last tile. -/
def outLast (c : Dev nD) (i : grid0.Coords) (arg2 : Memref sig .tc .vmem S8x256x16x128 .f32) (harg2 : arg2.IsWhole) (arg3 : Memref sig .tc .vmem S8x256 .f32) (harg3 : arg3.IsWhole) (arg4 : Memref sig .tc .vmem S8x256 .f32) (harg4 : arg4.IsWhole) (hc0 : ¬isFirst i) (hc1 : isLast i)
    (x : Vec F S8x256x16x128 .f32) (s : Vec F S8x256 .f32) : Vec F S8x256 .f32 :=
  outView.read (Elt F) (outView.writes (Elt F) outView.junk (runLast c i arg2 harg2 arg3 harg3 arg4 harg4 hc0 hc1 x s).1)

/-- Away from a last tile nothing is stored into the output block: a placeholder nothing consults (the window is
    idle there and is not written back). -/
def outIdle : Vec F S8x256 .f32 := outView.read (Elt F) (outView.writes (Elt F) outView.junk [])

/-! ## The contents after each point -/

theorem not_last_of_first {k : ℕ} (h : k % 8 = 0) : ¬k % 8 = 7 := by omega

/-- After the body at position `n`: (the output block, the running total). A first tile starts afresh; a middle or a
    last tile starts from the running total the tile before left. -/
def contentsAfter (c : Dev nD) : (n : ℕ) → n < cfg0.N → Vec F S8x256 .f32 × Vec F S8x256 .f32
  | 0, hn => (outIdle, totalFirst c (grid0.coords ⟨0, hn⟩) (xBuf ⟨0, hn⟩) (xBuf_whole ⟨0, hn⟩) (outBuf ⟨0, hn⟩) (outBuf_whole ⟨0, hn⟩) totalBuf (Memref.isWhole_whole _) ((isFirst_iff ⟨0, hn⟩).mpr (Nat.zero_mod _)) (fun h => not_last_of_first (Nat.zero_mod 8) ((isLast_iff ⟨0, hn⟩).mp h)) (blockAt V c 0 ⟨0, hn⟩))
  | n + 1, hn =>
    if h0 : (n + 1) % 8 = 0 then
      (outIdle, totalFirst c (grid0.coords ⟨n + 1, hn⟩) (xBuf ⟨n + 1, hn⟩) (xBuf_whole ⟨n + 1, hn⟩) (outBuf ⟨n + 1, hn⟩) (outBuf_whole ⟨n + 1, hn⟩) totalBuf (Memref.isWhole_whole _) ((isFirst_iff ⟨n + 1, hn⟩).mpr h0) (fun h => not_last_of_first h0 ((isLast_iff ⟨n + 1, hn⟩).mp h)) (blockAt V c 0 ⟨n + 1, hn⟩))
    else if h1 : (n + 1) % 8 = 7 then
      (outLast c (grid0.coords ⟨n + 1, hn⟩) (xBuf ⟨n + 1, hn⟩) (xBuf_whole ⟨n + 1, hn⟩) (outBuf ⟨n + 1, hn⟩) (outBuf_whole ⟨n + 1, hn⟩) totalBuf (Memref.isWhole_whole _) (fun h => h0 ((isFirst_iff ⟨n + 1, hn⟩).mp h)) ((isLast_iff ⟨n + 1, hn⟩).mpr h1) (blockAt V c 0 ⟨n + 1, hn⟩) (contentsAfter c n (Nat.lt_of_succ_lt hn)).2,
       totalLast c (grid0.coords ⟨n + 1, hn⟩) (xBuf ⟨n + 1, hn⟩) (xBuf_whole ⟨n + 1, hn⟩) (outBuf ⟨n + 1, hn⟩) (outBuf_whole ⟨n + 1, hn⟩) totalBuf (Memref.isWhole_whole _) (fun h => h0 ((isFirst_iff ⟨n + 1, hn⟩).mp h)) ((isLast_iff ⟨n + 1, hn⟩).mpr h1) (blockAt V c 0 ⟨n + 1, hn⟩) (contentsAfter c n (Nat.lt_of_succ_lt hn)).2)
    else
      (outIdle, totalMiddle c (grid0.coords ⟨n + 1, hn⟩) (xBuf ⟨n + 1, hn⟩) (xBuf_whole ⟨n + 1, hn⟩) (outBuf ⟨n + 1, hn⟩) (outBuf_whole ⟨n + 1, hn⟩) totalBuf (Memref.isWhole_whole _) (fun h => h0 ((isFirst_iff ⟨n + 1, hn⟩).mp h)) (fun h => h1 ((isLast_iff ⟨n + 1, hn⟩).mp h)) (blockAt V c 0 ⟨n + 1, hn⟩) (contentsAfter c n (Nat.lt_of_succ_lt hn)).2)

theorem contentsAfter_first (c : Dev nD) (t : Fin cfg0.N) (h0 : t.val % 8 = 0) :
    contentsAfter V c t.val t.isLt = (outIdle, totalFirst c (grid0.coords t) (xBuf t) (xBuf_whole t) (outBuf t) (outBuf_whole t) totalBuf (Memref.isWhole_whole _) ((isFirst_iff t).mpr h0) (fun h => not_last_of_first h0 ((isLast_iff t).mp h)) (blockAt V c 0 t)) := by
  obtain ⟨n, hn⟩ := t
  cases n with
  | zero => exact rfl
  | succ n => exact (dif_pos h0).trans rfl

theorem contentsAfter_middle (c : Dev nD) (t : Fin cfg0.N) (h0 : ¬t.val % 8 = 0) (h1 : ¬t.val % 8 = 7) :
    contentsAfter V c t.val t.isLt = (outIdle, totalMiddle c (grid0.coords t) (xBuf t) (xBuf_whole t) (outBuf t) (outBuf_whole t) totalBuf (Memref.isWhole_whole _) (fun h => h0 ((isFirst_iff t).mp h)) (fun h => h1 ((isLast_iff t).mp h)) (blockAt V c 0 t) (contentsAfter V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem contentsAfter_last (c : Dev nD) (t : Fin cfg0.N) (h0 : ¬t.val % 8 = 0) (h1 : t.val % 8 = 7) :
    contentsAfter V c t.val t.isLt = (outLast c (grid0.coords t) (xBuf t) (xBuf_whole t) (outBuf t) (outBuf_whole t) totalBuf (Memref.isWhole_whole _) (fun h => h0 ((isFirst_iff t).mp h)) ((isLast_iff t).mpr h1) (blockAt V c 0 t) (contentsAfter V c (t.val - 1) (Nat.lt_of_le_of_lt (Nat.sub_le _ _) t.isLt)).2,
      totalLast c (grid0.coords t) (xBuf t) (xBuf_whole t) (outBuf t) (outBuf_whole t) totalBuf (Memref.isWhole_whole _) (fun h => h0 ((isFirst_iff t).mp h)) ((isLast_iff t).mpr h1) (blockAt V c 0 t) (contentsAfter V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the running total rides through the launch -/

/-- The second launch's staging buffers, which this launch never touches, each at some contents. -/
def bystanders (c : Dev nD) : sProp 𝕄 :=
  iprop((∃ d, owns (c : Thread nD τ) (Memref.whole cc1_stg0_0) fullShare d) ∗ (∃ d, owns (c : Thread nD τ) (Memref.whole cc1_stg0_1) fullShare d) ∗ (∃ d, owns (c : Thread nD τ) (Memref.whole cc1_stg1_0) fullShare d) ∗ (∃ d, owns (c : Thread nD τ) (Memref.whole cc1_stg1_1) fullShare d) ∗ (∃ d, owns (c : Thread nD τ) (Memref.whole cc1_stg2_0) fullShare d) ∗ (∃ d, owns (c : Thread nD τ) (Memref.whole cc1_stg2_1) fullShare d))

theorem rest_split (c : Dev nD) :
    (Pipeline.ΦA spec0 c : sProp 𝕄)
      = iprop(iprop((∃ d, owns (c : Thread nD τ) totalBuf fullShare d) ∗ bystanders c) ∗ (∃ r, prngReg c r)) := by
  rw [rest_eq]; rfl

/-- Before position `n`: at the launch's start, what the launch hands over (the running total at anything); later, the
    running total at what the point before left. -/
def carried (c : Dev nD) : (n : ℕ) → n ≤ cfg0.N → sProp 𝕄
  | 0, _ => Pipeline.ΦA spec0 c
  | n + 1, hn => iprop(iprop(owns (c : Thread nD τ) totalBuf fullShare ((contentsAfter V c n hn).2) ∗ bystanders c) ∗ (∃ r, prngReg c r))

theorem carried_zero (c : Dev nD) (n : ℕ) (h : n ≤ cfg0.N) (hz : n = 0) : carried V c n h = Pipeline.ΦA spec0 c := by
  subst hz; rfl

theorem carried_succ (c : Dev nD) (n : ℕ) (hn : n < cfg0.N) :
    carried V c (n + 1) hn = iprop(iprop(owns (c : Thread nD τ) totalBuf fullShare ((contentsAfter V c n hn).2) ∗ bystanders c) ∗ (∃ r, prngReg c r)) := rfl

theorem carried_pos (c : Dev nD) (n : ℕ) (h : n ≤ cfg0.N) (hz : n ≠ 0) :
    carried V c n h = iprop(iprop(owns (c : Thread nD τ) totalBuf fullShare ((contentsAfter V c (n - 1) (by omega)).2) ∗ bystanders c) ∗ (∃ r, prngReg c r)) := by
  cases n with
  | zero => exact absurd rfl hz
  | succ n => rfl

/-! ## The per-point contents handed to the pipeline -/

def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => (contentsAfter V c t.val t.isLt).1
  Φ t := carried V c t.val (Nat.le_of_lt_succ t.isLt)
  q _ := fullShare
  owed _ := 0

theorem A_eq (c : Dev nD) (w : Fin cfg0.W) : (dat V c).A w = V c (Pipeline.arrRef spec0 w) := by
  dsimp only [dat]

theorem carried_castSucc (c : Dev nD) (t : Fin cfg0.N) :
    (dat V c).Φ t.castSucc = carried V c t.val (Nat.le_of_lt t.isLt) := by
  dsimp only [dat]; simp only [Fin.coe_castSucc]

theorem after_x (c : Dev nD) (t : Fin cfg0.N) : (dat V c).after 0 t = blockAt V c 0 t := by dsimp only [dat]
theorem after_out (c : Dev nD) (t : Fin cfg0.N) : (dat V c).after 1 t = (contentsAfter V c t.val t.isLt).1 := by dsimp only [dat]

theorem before_x (c : Dev nD) (t : Fin cfg0.N) (d) : (dat V c).before 0 t d = blockAt V c 0 t :=
  before_x_of V (dat V c) (A_eq V c 0) (after_x V c) t d

/-! ## The obligation at a point -/

def bodyPre (c : Dev nD) (t : Fin cfg0.N) : sProp 𝕄 :=
  iprop((dat V c).Φ t.castSucc ∗ (dat V c).owesAt () t.castSucc
    ∗ (∃ d, owns (c : Thread nD τ) (xBuf t) fullShare ((dat V c).before 0 t d))
    ∗ (∃ d, owns (c : Thread nD τ) (outBuf t) fullShare ((dat V c).before 1 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
/-- The body at any point. The point's position among the eight tiles says which run applies; the invariant hands the
    body the running total at what the tile before left (at anything at the very first point) and takes it back at
    this point's contents; away from a last tile the output buffer goes back untouched. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x]
  rw [show (dat V c).owesAt () t.succ = (dat V c).owesAt () t.castSucc from rfl]
  rw [show (dat V c).Φ t.succ = carried V c (t.val + 1) t.isLt from rfl, carried_succ]
  have hN : t.val < 32 := lt_of_lt_of_eq t.isLt (show cfg0.N = 32 from N_0)
  rw [show (dat V c).leavesExact 0 t = owns (c : Thread nD τ) (xBuf t) fullShare ((dat V c).after 0 t) from by
    unfold Dat.leavesExact; rw [x_live t], after_x]
  by_cases h0 : t.val % 8 = 0
  · have h1 : ¬t.val % 8 = 7 := not_last_of_first h0
    rw [Dat.leavesExact_idle (dat V c) 1 t (out_idle_first t ((isFirst_iff t).mpr h0) (fun h => h1 ((isLast_iff t).mp h))) (out_noflush_first t ((isFirst_iff t).mpr h0) (fun h => h1 ((isLast_iff t).mp h)))]
    rw [contentsAfter_first V c t h0]
    unfold totalFirst; (try dsimp only)
    by_cases hz : t.val = 0
    · rw [carried_castSucc V c t, carried_zero V c _ _ hz, rest_split]
      iintro ⟨⟨⟨HS0, Hby⟩, Hg⟩, Ho, ⟨%d0, H0⟩, ⟨%d1, H1⟩⟩
      iapply ((runFirst c (grid0.coords t) _ _ _ _ _ _ ((isFirst_iff t).mpr h0) (fun h => not_last_of_first h0 ((isLast_iff t).mp h)) (blockAt V c 0 t)).2.2 _ Set.univ _)
      isplitl [H0]; · iexact H0
      isplitl [H1]; · iexact H1
      isplitl [HS0]; · iexact HS0
      iintro ⟨H0, H1, ⟨%es0, HS0⟩⟩
      isplitl [HS0 Hby Hg]
      · isplitl [HS0 Hby]
        · isplitl [HS0]
          · unfold owns; iexists _; isplitr
            swap; · iexact HS0
            ipureintro; exact View.read_writes_of_cover _ _ _ _ _ (total_cover_first c _ _ _ _ _ _ _ _ _ _)
          iexact Hby
        iexact Hg
      isplitl [Ho]; · iexact Ho
      isplitl [H0]; · iexact H0
      iexists _; iexact H1
    · rw [carried_castSucc V c t, carried_pos V c _ _ hz]
      iintro ⟨⟨⟨HS0, Hby⟩, Hg⟩, Ho, ⟨%d0, H0⟩, ⟨%d1, H1⟩⟩
      iapply ((runFirst c (grid0.coords t) _ _ _ _ _ _ ((isFirst_iff t).mpr h0) (fun h => not_last_of_first h0 ((isLast_iff t).mp h)) (blockAt V c 0 t)).2.2 _ Set.univ _)
      isplitl [H0]; · iexact H0
      isplitl [H1]; · iexact H1
      isplitl [HS0]; · iexists _; iexact HS0
      iintro ⟨H0, H1, ⟨%es0, HS0⟩⟩
      isplitl [HS0 Hby Hg]
      · isplitl [HS0 Hby]
        · isplitl [HS0]
          · unfold owns; iexists _; isplitr
            swap; · iexact HS0
            ipureintro; exact View.read_writes_of_cover _ _ _ _ _ (total_cover_first c _ _ _ _ _ _ _ _ _ _)
          iexact Hby
        iexact Hg
      isplitl [Ho]; · iexact Ho
      isplitl [H0]; · iexact H0
      iexists _; iexact H1
  · have hz : t.val ≠ 0 := fun e => h0 (by rw [e])
    by_cases h1 : t.val % 8 = 7
    · rw [show (dat V c).leavesExact 1 t = owns (c : Thread nD τ) (outBuf t) fullShare ((dat V c).after 1 t) from by
        unfold Dat.leavesExact; rw [out_live_last t (fun h => h0 ((isFirst_iff t).mp h)) ((isLast_iff t).mpr h1)], after_out]
      rw [contentsAfter_last V c t h0 h1]
      unfold outLast totalLast; (try dsimp only)
      rw [carried_castSucc V c t, carried_pos V c _ _ hz]
      iintro ⟨⟨⟨HS0, Hby⟩, Hg⟩, Ho, ⟨%d0, H0⟩, ⟨%d1, H1⟩⟩
      iapply ((runLast c (grid0.coords t) _ _ _ _ _ _ (fun h => h0 ((isFirst_iff t).mp h)) ((isLast_iff t).mpr h1) (blockAt V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hby Hg]
      · isplitl [HS0 Hby]
        · isplitl [HS0]
          · unfold owns; iexists _; isplitr
            swap; · iexact HS0
            ipureintro; exact View.read_writes_of_cover _ _ _ _ _ (total_cover_last c _ _ _ _ _ _ _ _ _ _ _)
          iexact Hby
        iexact Hg
      isplitl [Ho]; · iexact Ho
      isplitl [H0]; · iexact H0
      unfold owns; iexists _; isplitr
      swap; · iexact H1
      ipureintro; exact View.read_writes_of_cover _ _ _ _ _ (out_cover_last c _ _ _ _ _ _ _ _ _ _ _)
    · rw [Dat.leavesExact_idle (dat V c) 1 t (out_idle_middle t (fun h => h0 ((isFirst_iff t).mp h)) (fun h => h1 ((isLast_iff t).mp h))) (out_noflush_middle t (fun h => h0 ((isFirst_iff t).mp h)) (fun h => h1 ((isLast_iff t).mp h)))]
      rw [contentsAfter_middle V c t h0 h1]
      unfold totalMiddle; (try dsimp only)
      rw [carried_castSucc V c t, carried_pos V c _ _ hz]
      iintro ⟨⟨⟨HS0, Hby⟩, Hg⟩, Ho, ⟨%d0, H0⟩, ⟨%d1, H1⟩⟩
      iapply ((runMiddle c (grid0.coords t) _ _ _ _ _ _ (fun h => h0 ((isFirst_iff t).mp h)) (fun h => h1 ((isLast_iff t).mp h)) (blockAt V c 0 t) _).2.2 _ Set.univ _)
      isplitl [H0]; · iexact H0
      isplitl [H1]; · iexact H1
      isplitl [HS0]; · iexact HS0
      iintro ⟨H0, H1, ⟨%es0, HS0⟩⟩
      isplitl [HS0 Hby Hg]
      · isplitl [HS0 Hby]
        · isplitl [HS0]
          · unfold owns; iexists _; isplitr
            swap; · iexact HS0
            ipureintro; exact View.read_writes_of_cover _ _ _ _ _ (total_cover_middle c _ _ _ _ _ _ _ _ _ _ _)
          iexact Hby
        iexact Hg
      isplitl [Ho]; · iexact Ho
      isplitl [H0]; · iexact H0
      iexists _; iexact H1

theorem body_obligation (c : Dev nD) : BodyObligation (dat (F := F) V c) (defs₀ (F := F)) Variants.none () Set.univ := fun t => by
  rw [bigSep_W0, bigSep_W0]
  exact body_at V c t

/-- What the launch hands the region is the invariant before the first point. -/
theorem enter (c : Dev nD) : Pipeline.ΦA spec0 c ⊢ (dat V c).Φ 0 := by
  rw [show (dat V c).Φ 0 = carried V c 0 (Nat.zero_le _) from rfl, carried_zero V c 0 _ rfl]
  try exact Idealize.SL.BI.Entails.refl _

/-- After the last point the invariant gives back what the launch handed over: the running total's contents are forgotten. -/
theorem leave (c : Dev nD) : (dat V c).Φ (Fin.last cfg0.N) ⊢ Pipeline.ΦA spec0 c := by
  have ht : (Fin.last cfg0.N).val ≠ 0 := by rw [Fin.val_last]; have : cfg0.N = 32 := N_0; omega
  rw [show (dat V c).Φ (Fin.last cfg0.N) = carried V c (Fin.last cfg0.N).val (Nat.le_of_lt_succ (Fin.last cfg0.N).isLt) from rfl, carried_pos V c _ _ ht, rest_split]
  iintro ⟨⟨HS0, Hby⟩, Hg⟩
  isplitl [HS0 Hby]
  · isplitl [HS0]
    · iexists _; iexact HS0
    iexact Hby
  iexact Hg

end Cert.Kernel.Pool

end
-- ==== Proof.ScaleFrameW.lean ====
/-
  The second launch: every grid point multiplies its 8×256×8×128 block of the feature map by the
  8×256 block of per-(image, channel) gates, spread over the two spatial axes, and stores the
  product over the whole output block. Nothing is kept between points, so the body at a point is
  one triple: from the two input blocks to the product block. This module states that triple,
  the per-point contents it gives the pipeline, and the obligation the launch asks for, at any
  contents `V` of the core's buffers on entry.
-/
import proofs.«104173_j50156628082926_1_alg».proof.Proof.Gen.Kernel.Launch
import proofs.«104173_j50156628082926_1_alg».proof.Proof.Gen.Kernel.Skeleton
import proofs.«104173_j50156628082926_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Scale

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point sees -/

/-- The block of window `w`'s array that grid point `t` addresses, read off the entry contents. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature-map window holds its block at every point: it is refetched at each one. -/
theorem before_x_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The gate window holds its block at every point: it is fetched when the image index moves, and between
    fetches the block index does not change. -/
theorem before_s_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The body's one store -/

abbrev wholeBlock : Rect S8x256x8x128 := Rect.unit (s := S8x256x8x128) ![0, 0, 0, 0] S8x256x8x128.size inb_S8x256x8x128_S8x256x8x128_0_0_0_0
abbrev wholeGate : Rect S8x256 := Rect.unit (s := S8x256) ![0, 0] S8x256.size inb_S8x256_S8x256_0_0

/-- What the body leaves in the output block: the product of the feature block and the spread gates,
    stored over the whole block. -/
def product (x : Vec F S8x256x8x128 .f32) (s : Vec F S8x256 .f32) : Vec F S8x256x8x128 .f32 :=
  View.canon [⟨wholeBlock, k1_pay1 (View.ld s wholeGate) (View.ld x wholeBlock)⟩]

/-- The one store covers the block. -/
theorem product_cover (p : Vec F S8x256x8x128 .f32) (y : S8x256x8x128.Idx) :
    ∃ pc ∈ ([⟨wholeBlock, p⟩] : List (View.Piece (Elt F) S8x256x8x128 .f32)), y ∈ pc.1.set :=
  View.cover_of_tiled [⟨wholeBlock, p⟩] S8x256x8x128.size (by rfl) y

/-! ## The body's triple -/

set_option maxHeartbeats 1000000 in
/-- On whole staging buffers, the inputs at `x` and `s` and the output at anything, the body runs and leaves the
    inputs as they were and the output at `product x s`. -/
theorem body_triple (c : Dev nD) (E : Set ℕ) (i : grid1.Coords) (arg2 : Memref sig .tc .vmem S8x256x8x128 .f32) (harg2 : arg2.IsWhole)
    (arg3 : Memref sig .tc .vmem S8x256 .f32) (harg3 : arg3.IsWhole) (arg4 : Memref sig .tc .vmem S8x256x8x128 .f32) (harg4 : arg4.IsWhole)
    (x : Vec F S8x256x8x128 .f32) (s : Vec F S8x256 .f32) (K : PUnit → sProp 𝕄) :
    iprop(owns (c : Thread nD τ) arg2 fullShare x ∗ owns (c : Thread nD τ) arg3 fullShare s ∗ (∃ d, owns (c : Thread nD τ) arg4 fullShare d)
        ∗ (iprop(owns (c : Thread nD τ) arg2 fullShare x ∗ owns (c : Thread nD τ) arg3 fullShare s ∗ owns (c : Thread nD τ) arg4 fullShare (product x s)) -∗ K ⟨⟩))
      ⊢ wp frame (wpE (defs₀ (F := F)) Variants.none c none) E (cc1__scale_kernel i arg2 harg2 arg3 harg3 arg4 harg4) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (product_cover _)

/-! ## The per-point contents handed to the pipeline -/

/-- After the body at point `t`: each input buffer still at its block, the output buffer at the product of the two. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => product (blockAt V c 0 t) (blockAt V c 1 t)
  Φ _ := Pipeline.ΦA spec1 c
  q _ := fullShare
  owed _ := 0

theorem A_eq (c : Dev nD) (w : Fin cfg1.W) : (dat V c).A w = V c (Pipeline.arrRef spec1 w) := by
  dsimp only [dat]
theorem after_x (c : Dev nD) (t : Fin cfg1.N) : (dat V c).after 0 t = blockAt V c 0 t := by dsimp only [dat]
theorem after_s (c : Dev nD) (t : Fin cfg1.N) : (dat V c).after 1 t = blockAt V c 1 t := by dsimp only [dat]
theorem after_out (c : Dev nD) (t : Fin cfg1.N) : (dat V c).after 2 t = product (blockAt V c 0 t) (blockAt V c 1 t) := by dsimp only [dat]

theorem before_x (c : Dev nD) (t : Fin cfg1.N) (d) : (dat V c).before 0 t d = blockAt V c 0 t :=
  before_x_of V (dat V c) (A_eq V c 0) (after_x V c) t d
theorem before_s (c : Dev nD) (t : Fin cfg1.N) (d) : (dat V c).before 1 t d = blockAt V c 1 t :=
  before_s_of V (dat V c) (A_eq V c 1) (after_s V c) t d

/-! ## The obligation at a point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: both input buffers hold their blocks, so the triple applies; the region's invariant and
    the core's dues pass through untouched. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_x, before_s]
  rw [show (dat V c).Φ t.succ = (dat V c).Φ t.castSucc from rfl,
    show (dat V c).owesAt () t.succ = (dat V c).owesAt () t.castSucc from rfl,
    after_x, after_s, after_out]
  iintro ⟨HΦ, Ho, ⟨%d0, H0⟩, ⟨%d1, H1⟩, ⟨%d2, H2⟩⟩
  iapply (body_triple c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W1, bigSep_W1]
  exact body_at V c t

end Cert.Kernel.Scale

end
-- ==== Proof.WholeRunW.lean ====
/-
  The whole program: the pooling launch, the gate's host operations, the scaling launch, in order. The contents of
  the core's buffers are followed from the launch to the return — `held0` at launch, `held1` after the pooling launch
  (its output array at what its write-backs leave), `held2…held4` after the three stretches of host operations, `held5`
  after the scaling launch — and every weakly fair execution is shown to terminate with every buffer at `held5`.
  From that one run come both the frame (the three arguments are never written, so `held5` has them as launched)
  and the value of the result array.
-/
import proofs.«104173_j50156628082926_1_alg».proof.Proof.PoolFrameW
import proofs.«104173_j50156628082926_1_alg».proof.Proof.ScaleFrameW
import proofs.«104173_j50156628082926_1_alg».proof.Proof.Gen.Kernel.Regions
import Idealize.ShloMosaic.Lib.Pipeline.RegionsLoop

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents from item to item -/

/-- At launch. -/
abbrev held0 : Dev nD → Valuation τ sig (Elt F) := fun c b => (s₀ m ρ).mem ((c : Dev nD), b)
abbrev entry0 : (c : Dev nD) → (b : Ref sig .tc) → Buf (Elt F) ((c : Thread nD τ).loc b) := fun c b => held0 m ρ c b
/-- After the pooling launch: its arrays at what the pipeline leaves, every other buffer untouched. -/
def held1 (c : Dev nD) : Valuation τ sig (Elt F) :=
  Pipeline.withArrays spec0 c (held0 m ρ c) fun w => (Pool.dat (entry0 m ρ) c).arrAt w cfg0.N
theorem held1_arr (c : Dev nD) (w : Fin cfg0.W) :
    held1 m ρ c (Proc.devRef .tc (Pipeline.arrRef spec0 w)) = (Pool.dat (entry0 m ρ) c).arrAt w cfg0.N := by
  unfold held1; exact Pipeline.withArrays_arr spec0 launch0.win.arr_inj c _ _ w
theorem held1_of_ne (c : Dev nD) (b : Ref sig .tc) (hb : ∀ w, Pipeline.arrRef spec0 w ≠ b) :
    held1 m ρ c (Proc.devRef .tc b) = held0 m ρ c (Proc.devRef .tc b) := by
  unfold held1; exact Pipeline.withArrays_of_ne spec0 c _ _ b hb
abbrev exit0 : (c : Dev nD) → (b : Ref sig .tc) → Buf (Elt F) ((c : Thread nD τ).loc b) := fun c b => held1 m ρ c b
theorem exit0_arr (c : Dev nD) (w : Fin cfg0.W) : (Pool.dat (entry0 m ρ) c).arrAt w cfg0.N = exit0 m ρ c (Pipeline.arrRef spec0 w) :=
  (held1_arr m ρ c w).symm
theorem exit0_rest (c : Dev nD) : ∀ b, b ∉ Finset.univ.image (Pipeline.arrRef spec0) → exit0 m ρ c b = entry0 m ρ c b :=
  fun b hb => held1_of_ne m ρ c b fun w e => hb (Finset.mem_image.mpr ⟨w, Finset.mem_univ _, e⟩)

/-- After the first matrix product, the clamp at zero, and the rest of the gate. -/
abbrev held2 : Dev nD → Valuation τ sig (Elt F) := fun c => StableHlo.after hostOps1 (held1 m ρ c)
abbrev held3 : Dev nD → Valuation τ sig (Elt F) := fun c => StableHlo.after hostOps1_1 (held2 m ρ c)
abbrev held4 : Dev nD → Valuation τ sig (Elt F) := fun c => StableHlo.after hostOps1_2 (held3 m ρ c)
abbrev entry1 : (c : Dev nD) → (b : Ref sig .tc) → Buf (Elt F) ((c : Thread nD τ).loc b) := fun c b => held4 m ρ c b
/-- After the scaling launch. -/
def held5 (c : Dev nD) : Valuation τ sig (Elt F) :=
  Pipeline.withArrays spec1 c (held4 m ρ c) fun w => (Scale.dat (entry1 m ρ) c).arrAt w cfg1.N
theorem held5_arr (c : Dev nD) (w : Fin cfg1.W) :
    held5 m ρ c (Proc.devRef .tc (Pipeline.arrRef spec1 w)) = (Scale.dat (entry1 m ρ) c).arrAt w cfg1.N := by
  unfold held5; exact Pipeline.withArrays_arr spec1 launch1.win.arr_inj c _ _ w
theorem held5_of_ne (c : Dev nD) (b : Ref sig .tc) (hb : ∀ w, Pipeline.arrRef spec1 w ≠ b) :
    held5 m ρ c (Proc.devRef .tc b) = held4 m ρ c (Proc.devRef .tc b) := by
  unfold held5; exact Pipeline.withArrays_of_ne spec1 c _ _ b hb
abbrev exit1 : (c : Dev nD) → (b : Ref sig .tc) → Buf (Elt F) ((c : Thread nD τ).loc b) := fun c b => held5 m ρ c b
theorem exit1_arr (c : Dev nD) (w : Fin cfg1.W) : (Scale.dat (entry1 m ρ) c).arrAt w cfg1.N = exit1 m ρ c (Pipeline.arrRef spec1 w) :=
  (held5_arr m ρ c w).symm
theorem exit1_rest (c : Dev nD) : ∀ b, b ∉ Finset.univ.image (Pipeline.arrRef spec1) → exit1 m ρ c b = entry1 m ρ c b :=
  fun b hb => held5_of_ne m ρ c b fun w e => hb (Finset.mem_image.mpr ⟨w, Finset.mem_univ _, e⟩)

/-! ## The arguments are never written -/

/-- The feature map reaches the scaling launch as launched: both launches only read it, no host operation writes it. -/
theorem held4_x (c : Dev nD) : held4 m ρ c (Proc.devRef .tc main_arg0) = m ((c : Thread nD τ).loc main_arg0) :=
  calc held4 m ρ c (Proc.devRef .tc main_arg0)
    _ = held3 m ρ c (Proc.devRef .tc main_arg0) := (StableHlo.after_of_writes_sub hostOps1_2 _ hostOps1_2_writes (by decide))
    _ = held2 m ρ c (Proc.devRef .tc main_arg0) := (StableHlo.after_of_writes_sub hostOps1_1 _ hostOps1_1_writes (by decide))
    _ = held1 m ρ c (Proc.devRef .tc main_arg0) := (StableHlo.after_of_writes_sub hostOps1 _ hostOps1_writes (by decide))
    _ = held0 m ρ c (Proc.devRef .tc main_arg0) := (held1_arr m ρ c 0).trans (((Pool.dat (entry0 m ρ) c).arrAt_in 0 rfl _).trans (Pool.A_eq (entry0 m ρ) c 0))
    _ = m ((c : Thread nD τ).loc main_arg0) := rfl
theorem held5_x (c : Dev nD) : held5 m ρ c (Proc.devRef .tc main_arg0) = m ((c : Thread nD τ).loc main_arg0) :=
  ((held5_arr m ρ c 0).trans (((Scale.dat (entry1 m ρ) c).arrAt_in 0 rfl _).trans (Scale.A_eq (entry1 m ρ) c 0))).trans (held4_x m ρ c)
theorem held4_w1 (c : Dev nD) : held4 m ρ c (Proc.devRef .tc main_arg1) = m ((c : Thread nD τ).loc main_arg1) :=
  calc held4 m ρ c (Proc.devRef .tc main_arg1)
    _ = held3 m ρ c (Proc.devRef .tc main_arg1) := (StableHlo.after_of_writes_sub hostOps1_2 _ hostOps1_2_writes (by decide))
    _ = held2 m ρ c (Proc.devRef .tc main_arg1) := (StableHlo.after_of_writes_sub hostOps1_1 _ hostOps1_1_writes (by decide))
    _ = held1 m ρ c (Proc.devRef .tc main_arg1) := (StableHlo.after_of_writes_sub hostOps1 _ hostOps1_writes (by decide))
    _ = held0 m ρ c (Proc.devRef .tc main_arg1) := held1_of_ne m ρ c main_arg1 (by decide)
    _ = m ((c : Thread nD τ).loc main_arg1) := rfl
theorem held5_w1 (c : Dev nD) : held5 m ρ c (Proc.devRef .tc main_arg1) = m ((c : Thread nD τ).loc main_arg1) :=
  (held5_of_ne m ρ c main_arg1 (by decide)).trans (held4_w1 m ρ c)
theorem held4_w2 (c : Dev nD) : held4 m ρ c (Proc.devRef .tc main_arg2) = m ((c : Thread nD τ).loc main_arg2) :=
  calc held4 m ρ c (Proc.devRef .tc main_arg2)
    _ = held3 m ρ c (Proc.devRef .tc main_arg2) := (StableHlo.after_of_writes_sub hostOps1_2 _ hostOps1_2_writes (by decide))
    _ = held2 m ρ c (Proc.devRef .tc main_arg2) := (StableHlo.after_of_writes_sub hostOps1_1 _ hostOps1_1_writes (by decide))
    _ = held1 m ρ c (Proc.devRef .tc main_arg2) := (StableHlo.after_of_writes_sub hostOps1 _ hostOps1_writes (by decide))
    _ = held0 m ρ c (Proc.devRef .tc main_arg2) := held1_of_ne m ρ c main_arg2 (by decide)
    _ = m ((c : Thread nD τ).loc main_arg2) := rfl
theorem held5_w2 (c : Dev nD) : held5 m ρ c (Proc.devRef .tc main_arg2) = m ((c : Thread nD τ).loc main_arg2) :=
  (held5_of_ne m ρ c main_arg2 (by decide)).trans (held4_w2 m ρ c)

/-! ## The two launches' proof data, and what rides along -/

/-- Each launch's per-point contents, at the buffer contents it is entered from. -/
def perLaunch : (p : Fin 2) → (c : Dev nD) → Dat τ (Elt F) Unit ℕ (UR sig nD τ) ℕ (Pipeline.pin (pcfgs (F := F)) adm p) c
  | ⟨0, _⟩ => fun c => Pool.dat (entry0 m ρ) c
  | ⟨1, _⟩ => fun c => Scale.dat (entry1 m ρ) c
abbrev noVariants : Variants := Variants.none
abbrev noPairs : GSem nD τ sig → Finset Unit := fun _ => ∅
abbrev noLevels : GSem nD τ sig → Unit → ℕ := fun _ _ => 0
/-- Beside the buffers every item carries the random-number register at some state and the core's dues, which are none. -/
abbrev riding (c : Dev nD) : sProp 𝕄 := iprop((∃ r, prngReg c r) ∗ ∃ W, owes (c : Thread nD τ) (0 : CellTallies nD τ sig Unit) W)

/-- A stretch of host operations as an item of the program. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevels :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

theorem mem_held (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last item's exit without the dues. -/
abbrev atReturn (c : Dev nD) : sProp 𝕄 := iprop(StableHlo.held (c : Thread nD τ) (Pipeline.ucRefs τ sig) (held5 m ρ c) ∗ ∃ r, prngReg c r)

/-! ## The launches as items -/

set_option backward.isDefEq.respectTransparency.types false in
/-- The pooling launch, entered with every buffer at `held0` and left with every buffer at `held1`. Its arrays are taken
    out of the buffers on entry and put back at their final contents on exit; the running total's buffer and the
    random-number register enter the launch's invariant and come back out of it. -/
def poolItem : Pipeline.RegionSeg (pcfgs (F := F)) adm (perLaunch m ρ) () defs₀ noVariants noPairs noLevels 0 where
  win := launch0.win.to₀
  block_pos := launch0.block_pos
  stage_whole := launch0.stage_whole
  K := PEmpty
  osem k := k.elim
  ho := Pipeline.OwnSemFacts.none _
  hbody c := (Pool.body_obligation (entry0 m ρ) c).loose
  hwaits := Pipeline.hwaits_of_owed_zero _ _ _ _ noPairs noLevels 0 fun _ _ => rfl
  pre c := iprop(StableHlo.held (c : Thread nD τ) (Pipeline.ucRefs τ sig) (held0 m ρ c) ∗ riding c)
  post c := iprop(StableHlo.held (c : Thread nD τ) (Pipeline.ucRefs τ sig) (held1 m ρ c) ∗ riding c)
  X c := iprop(∃ r, prngReg c r)
  Y c := iprop(∃ r, prngReg c r)
  Z c := Pipeline.unscopedRest (Ix := Unit) (Name := ℕ) (U := UR sig nD τ) (Lvl := ℕ) spec0 c (entry0 m ρ c)
  hentry c := by
    rw [Pipeline.ownSems0_none]
    have hsplit := Pipeline.arrays_of_unscopedBufs (p := 0) (pcfgs (F := F)) adm (perLaunch m ρ) launch0.win launch0.arr_whole c
      ((perLaunch m ρ 0 c).share_full fun _ => rfl) (entry0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (perLaunch m ρ 0 c).Φ 0 from Pool.enter (entry0 m ρ) c)
    unfold Pipeline.ΦA
    iintro ⟨Hp, -, Hr⟩
    isplitl [Hr]; · iexact Hr
    iexact Hp
  hout c := by
    rw [Pipeline.ownSems0_none]
    refine BIBase.Entails.trans (show (perLaunch m ρ 0 c).Φ (Fin.last _) ⊢ Pipeline.ΦA spec0 c from Pool.leave (entry0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (perLaunch m ρ) ((perLaunch m ρ 0 c).share_full fun _ => rfl)
      (entry0 m ρ c) (exit0 m ρ c) ((perLaunch m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scaling launch, entered with every buffer at `held4` and left with every buffer at `held5`; nothing is kept
    between its points, so its invariant is only what the launch hands over. -/
def scaleItem : Pipeline.RegionSeg (pcfgs (F := F)) adm (perLaunch m ρ) () defs₀ noVariants noPairs noLevels 1 where
  win := launch1.win.to₀
  block_pos := launch1.block_pos
  stage_whole := launch1.stage_whole
  K := PEmpty
  osem k := k.elim
  ho := Pipeline.OwnSemFacts.none _
  hbody c := (Scale.body_obligation (entry1 m ρ) c).loose
  hwaits := Pipeline.hwaits_of_owed_zero _ _ _ _ noPairs noLevels 1 fun _ _ => rfl
  pre c := iprop(StableHlo.held (c : Thread nD τ) (Pipeline.ucRefs τ sig) (held4 m ρ c) ∗ riding c)
  post c := iprop(atReturn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (entry1 m ρ c)
  hentry c := by
    rw [Pipeline.ownSems0_none]
    have hsplit := Pipeline.arrays_of_unscopedBufs (p := 1) (pcfgs (F := F)) adm (perLaunch m ρ) launch1.win launch1.arr_whole c
      ((perLaunch m ρ 1 c).share_full fun _ => rfl) (entry1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (perLaunch m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (perLaunch m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (perLaunch m ρ) ((perLaunch m ρ 1 c).share_full fun _ => rfl)
      (entry1 m ρ c) (exit1 m ρ c) ((perLaunch m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its five items, and the run -/

abbrev items : List (Pipeline.Seg (pcfgs (F := F)) adm (perLaunch m ρ) () defs₀ noVariants noPairs noLevels) :=
  [ .region (poolItem m ρ),
    .host (hostItem hostOps1 hostOps1_sub hostOps1_fresh (held1 m ρ)),
    .host (hostItem hostOps1_1 hostOps1_1_sub hostOps1_1_fresh (held2 m ρ)),
    .host (hostItem hostOps1_2 hostOps1_2_sub hostOps1_2_fresh (held3 m ρ)),
    .region (scaleItem m ρ) ]

theorem main_items (c : Dev nD) : main (F := F) c = Pipeline.Seg.run (items m ρ) := (main_chain c).trans (by chain_rfl)

set_option backward.isDefEq.respectTransparency.types false in
/-- Every weakly fair execution of the program from memory `m` with zero counters terminates, and in every final state
    every buffer that outlives the launches holds what `held5` says. -/
theorem run : θ_run defs (onTc (τ := τ) (main (F := F))) ⟨m, fun _ => 0, ρ⟩ (fun r => ∀ c : Dev nD,
      ∀ b ∈ Pipeline.ucRefs τ sig, r.2.mem (((c : Thread nD τ)).1, b) = held5 m ρ c b) :=
  Pipeline.θ_run_regions_kit (pcfgs (F := F)) adm (perLaunch m ρ) () cellOf_inj emb₁ defs₀ noVariants noPairs noLevels m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (held0 m ρ c) ∗ riding c)) (Tₙ := atReturn m ρ)
    (hch := ⟨fun _ => .rfl, fun _ => .rfl, fun _ => .rfl, fun _ => .rfl, fun _ => .rfl, fun _ => .rfl⟩)
    (hinit := by
      refine Pipeline.initEach noPairs noLevels fun c => ?_
      rw [show unscopedBufs c (fun b => m ((c : Thread nD τ).loc b)) = StableHlo.held (c : Thread nD τ) (Pipeline.ucRefs τ sig) (held0 m ρ c)
        from Pipeline.unscopedBufs_held c (held0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = held5 m ρ c b)
    (hfin := fun c s' => by
      iintro ⟨⟨Hh, -⟩, HSI⟩
      unfold StableHlo.held
      imodintro
      iapply (pointsTo_read_all (Pipeline.ucRefs τ sig) (fun b => (((c : Thread nD τ)).1, b)) (held5 m ρ c) s')
      isplitl [Hh] <;> iassumption)
    (hQ := fun s h c => h c)

/-- The frame: every execution terminates and the three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_held main_arg0 (by decide))).trans (held5_x m ρ c),
     (h c _ (mem_held main_arg1 (by decide))).trans (held5_w1 m ρ c),
     (h c _ (mem_held main_arg2 (by decide))).trans (held5_w2 m ρ c)⟩) (run m ρ)

/-- The result array after the run: what the scaling launch's write-backs leave. -/
theorem run_result : θ_run defs (onTc (τ := τ) (main (F := F))) ⟨m, fun _ => 0, ρ⟩ (fun r => ∀ c : Dev nD,
      r.2.mem ((c.tc : Thread nD τ).loc main_v10) = (Scale.dat (entry1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_held main_v10 (by decide))).trans (held5_arr m ρ c 2),
     (h c _ (mem_held main_arg0 (by decide))).trans (held5_x m ρ c),
     (h c _ (mem_held main_arg1 (by decide))).trans (held5_w1 m ρ c),
     (h c _ (mem_held main_arg2 (by decide))).trans (held5_w2 m ρ c)⟩) (run m ρ)

end Cert.Kernel.Whole

end
-- ==== Proof.PoolRuns.lean ====
/-
  The first launch sums the feature map over its two spatial axes, eight row-tiles per image block:
  at a tile the body adds the tile's 16×128 sums, channel by channel, to an 8×256 running total it
  keeps in a buffer of its own; at an image block's first tile it clears the total first, and at the
  last it stores the total times 2⁻¹⁴ into the output block. So a grid point is in one of three
  situations, told by its position among the eight tiles: FIRST (clear, then add), MIDDLE (add) and
  LAST (add, then store). This module runs the body once per situation: what it writes into the
  running total and into the output block is found by the run itself, as lists of stored pieces.
-/
import proofs.«104173_j50156628082926_1_alg».proof.Proof.Gen.KernelIdeal.Launch
import proofs.«104173_j50156628082926_1_alg».proof.Proof.Gen.KernelIdeal.Skeleton
import proofs.«104173_j50156628082926_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Which situation a point is in -/

/-- The point is an image block's first tile. -/
abbrev isFirst (i : grid0.Coords) : Prop := (Scalar.cmpi .ne (Scalar.extui (Scalar.cmpi .eq (BitVec.ofNat 32 (i 1).val) 0#32)) 0#32) = 1#1
/-- The first tiles are the points ≡ 0 (mod 8). -/
theorem isFirst_iff : ∀ t : Fin cfg0.N, isFirst (grid0.coords t) ↔ t.val % 8 = 0 :=
  (by decide +kernel : ∀ t : Fin grid0.N, isFirst (grid0.coords t) ↔ t.val % 8 = 0)

/-- The point is an image block's last tile. -/
abbrev isLast (i : grid0.Coords) : Prop := k0_cond2 i = 1#1
/-- The last tiles are the points ≡ 7 (mod 8). -/
theorem isLast_iff : ∀ t : Fin cfg0.N, isLast (grid0.coords t) ↔ t.val % 8 = 7 :=
  (by decide +kernel : ∀ t : Fin grid0.N, isLast (grid0.coords t) ↔ t.val % 8 = 7)

/-! ## Where the windows are live -/

theorem x_live : ∀ t : Fin cfg0.N, cfg0.idle 0 (grid0.coords t) = false := by decide +kernel
/-- Away from a last tile the output window is idle: nothing is stored into it, and it is not written back. -/
theorem out_idle_first : ∀ t : Fin cfg0.N, isFirst (grid0.coords t) → ¬isLast (grid0.coords t) → cfg0.idle 1 (grid0.coords t) = true := by decide +kernel
theorem out_noflush_first : ∀ t : Fin cfg0.N, isFirst (grid0.coords t) → ¬isLast (grid0.coords t) → (cfg0.win 1).flush t = false := by decide +kernel
theorem out_idle_middle : ∀ t : Fin cfg0.N, ¬isFirst (grid0.coords t) → ¬isLast (grid0.coords t) → cfg0.idle 1 (grid0.coords t) = true := by decide +kernel
theorem out_noflush_middle : ∀ t : Fin cfg0.N, ¬isFirst (grid0.coords t) → ¬isLast (grid0.coords t) → (cfg0.win 1).flush t = false := by decide +kernel
/-- At a last tile the output window is live. -/
theorem out_live_last : ∀ t : Fin cfg0.N, ¬isFirst (grid0.coords t) → isLast (grid0.coords t) → cfg0.idle 1 (grid0.coords t) = false := by decide +kernel

/-! ## The buffers the body is called on -/

/-- One staging buffer of the output window and the running total's buffer, as views through which contents are stated. -/
abbrev outView : View sig .tc .vmem S8x256 .f32 := (Memref.whole cc0_stg1_0 : Memref sig .tc .vmem S8x256 .f32).view
abbrev xBuf (t : Fin cfg0.N) : Memref sig .tc .vmem S8x256x16x128 .f32 := win0_0.stage (cfg0.slots t 0)
abbrev xBuf_whole (t : Fin cfg0.N) : (xBuf t).IsWhole := hstage0_0 ((cfg0.slots t 0).cast nbuf0_0)
abbrev outBuf (t : Fin cfg0.N) : Memref sig .tc .vmem S8x256 .f32 := win0_1.stage (cfg0.slots t 1)
abbrev outBuf_whole (t : Fin cfg0.N) : (outBuf t).IsWhole := hstage0_1 ((cfg0.slots t 1).cast nbuf0_1)
abbrev totalBuf : Memref sig .tc .vmem S8x256 .f32 := Memref.whole cc0_scratch0
abbrev totalView : View sig .tc .vmem S8x256 .f32 := totalBuf.view

/-- What the launch hands the body besides the windows: the running total's buffer at some contents, and the
    random-number register. -/
theorem rest_eq (c : Dev nD) :
    (Pipeline.ΦA spec0 c : sProp 𝕄)
      = iprop(iprop((∃ d, owns (c : Thread nD τ) totalBuf fullShare d) ∗ (∃ d, owns (c : Thread nD τ) (Memref.whole cc1_stg0_0) fullShare d) ∗ (∃ d, owns (c : Thread nD τ) (Memref.whole cc1_stg0_1) fullShare d) ∗ (∃ d, owns (c : Thread nD τ) (Memref.whole cc1_stg1_0) fullShare d) ∗ (∃ d, owns (c : Thread nD τ) (Memref.whole cc1_stg1_1) fullShare d) ∗ (∃ d, owns (c : Thread nD τ) (Memref.whole cc1_stg2_0) fullShare d) ∗ (∃ d, owns (c : Thread nD τ) (Memref.whole cc1_stg2_1) fullShare d)) ∗ (∃ r, prngReg c r)) := by
  unfold Pipeline.ΦA; rw [scopedRest0_eq]; simp only [totalBuf, owns_whole]; try rfl

/-! ## The three runs -/

set_option maxHeartbeats 1000000 in
/-- FIRST tile: from the feature block at `x`, the output buffer at `o` (handed back untouched) and the running
    total at anything, the body leaves the pieces `LS` written into the running total. -/
noncomputable def runFirst (c : Dev nD) (i : grid0.Coords) (arg2 : Memref sig .tc .vmem S8x256x16x128 .f32) (harg2 : arg2.IsWhole) (arg3 : Memref sig .tc .vmem S8x256 .f32) (harg3 : arg3.IsWhole) (arg4 : Memref sig .tc .vmem S8x256 .f32) (harg4 : arg4.IsWhole) (hc0 : isFirst i) (hc1 : ¬isLast i)
    (x : Vec F S8x256x16x128 .f32) :
    Σ' (L1 : List (View.Piece (Elt F) S8x256 .f32)), { LS : List (View.Piece (Elt F) S8x256 .f32) //
      ∀ (o : Vec F S8x256 .f32) (E : Set ℕ) (K : PUnit → sProp 𝕄),
        iprop(owns (c : Thread nD τ) arg2 fullShare x ∗ owns (c : Thread nD τ) arg3 fullShare o ∗ (∃ d, owns (c : Thread nD τ) arg4 fullShare d)
            ∗ (iprop(owns (c : Thread nD τ) arg2 fullShare x ∗ owns (c : Thread nD τ) arg3 fullShare o ∗ (∃ f, arg4.view.loc (c : Thread nD τ) ↦[arg4.view.set]{fullShare} arg4.view.writes (Elt F) f LS)) -∗ K ⟨⟩))
          ⊢ wp frame (wpE (defs₀ (F := F)) Variants.none c none) E (cc0__pool_kernel i arg2 harg2 arg3 harg3 arg4 harg4) K } := by
  refine ⟨[], ?_, fun o E K => ?run⟩
  case run =>
    simp only [cc0__pool_kernel_eq_skeleton]; unfold cc0__pool_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- MIDDLE tile: from the feature block at `x`, the output buffer at `o` (handed back untouched) and the running
    total at `s`, the body leaves the pieces `LS` written into the running total. -/
noncomputable def runMiddle (c : Dev nD) (i : grid0.Coords) (arg2 : Memref sig .tc .vmem S8x256x16x128 .f32) (harg2 : arg2.IsWhole) (arg3 : Memref sig .tc .vmem S8x256 .f32) (harg3 : arg3.IsWhole) (arg4 : Memref sig .tc .vmem S8x256 .f32) (harg4 : arg4.IsWhole) (hc0 : ¬isFirst i) (hc1 : ¬isLast i)
    (x : Vec F S8x256x16x128 .f32) (s : Vec F S8x256 .f32) :
    Σ' (L1 : List (View.Piece (Elt F) S8x256 .f32)), { LS : List (View.Piece (Elt F) S8x256 .f32) //
      ∀ (o : Vec F S8x256 .f32) (E : Set ℕ) (K : PUnit → sProp 𝕄),
        iprop(owns (c : Thread nD τ) arg2 fullShare x ∗ owns (c : Thread nD τ) arg3 fullShare o ∗ owns (c : Thread nD τ) arg4 fullShare s
            ∗ (iprop(owns (c : Thread nD τ) arg2 fullShare x ∗ owns (c : Thread nD τ) arg3 fullShare o ∗ (∃ f, arg4.view.loc (c : Thread nD τ) ↦[arg4.view.set]{fullShare} arg4.view.writes (Elt F) f LS)) -∗ K ⟨⟩))
          ⊢ wp frame (wpE (defs₀ (F := F)) Variants.none c none) E (cc0__pool_kernel i arg2 harg2 arg3 harg3 arg4 harg4) K } := by
  refine ⟨[], ?_, fun o E K => ?run⟩
  case run =>
    simp only [cc0__pool_kernel_eq_skeleton]; unfold cc0__pool_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- LAST tile: from the feature block at `x`, the output buffer at anything and the running total at `s`, the
    body leaves the pieces `L1` written into the output buffer and `LS` into the running total. -/
noncomputable def runLast (c : Dev nD) (i : grid0.Coords) (arg2 : Memref sig .tc .vmem S8x256x16x128 .f32) (harg2 : arg2.IsWhole) (arg3 : Memref sig .tc .vmem S8x256 .f32) (harg3 : arg3.IsWhole) (arg4 : Memref sig .tc .vmem S8x256 .f32) (harg4 : arg4.IsWhole) (hc0 : ¬isFirst i) (hc1 : isLast i)
    (x : Vec F S8x256x16x128 .f32) (s : Vec F S8x256 .f32) :
    Σ' (L1 : List (View.Piece (Elt F) S8x256 .f32)), { LS : List (View.Piece (Elt F) S8x256 .f32) //
      ∀ (E : Set ℕ) (K : PUnit → sProp 𝕄),
        iprop(owns (c : Thread nD τ) arg2 fullShare x ∗ (∃ d, owns (c : Thread nD τ) arg3 fullShare d) ∗ owns (c : Thread nD τ) arg4 fullShare s
            ∗ (iprop(owns (c : Thread nD τ) arg2 fullShare x ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS)) -∗ K ⟨⟩))
          ⊢ wp frame (wpE (defs₀ (F := F)) Variants.none c none) E (cc0__pool_kernel i arg2 harg2 arg3 harg3 arg4 harg4) K } := by
  refine ⟨?_, ?_, fun E K => ?run⟩
  case run =>
    simp only [cc0__pool_kernel_eq_skeleton]; unfold cc0__pool_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Pool

end
-- ==== Proof.PoolFrame.lean ====
/-
  The first launch, point by point. With the three runs of the body in hand (first, middle and last tile
  of an image block), this module says what the running total and the output block hold after every grid
  point — by recursion on the point, a middle or last tile starting from what the tile before left —,
  carries the running total through the launch's invariant, and proves the obligation the launch asks of
  the body at every point. Everything is stated at any contents `V` of the core's buffers on entry.
-/
import proofs.«104173_j50156628082926_1_alg».proof.Proof.PoolRuns

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point sees -/

/-- The block of window `w`'s array that grid point `t` addresses, read off the entry contents. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature-map window holds its block at every point: it is refetched at each one. -/
theorem before_x_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-! ## What each situation leaves -/

/-- The pieces a first tile writes into the running total cover it. -/
theorem total_cover_first (c : Dev nD) (i : grid0.Coords) (arg2 : Memref sig .tc .vmem S8x256x16x128 .f32) (harg2 : arg2.IsWhole) (arg3 : Memref sig .tc .vmem S8x256 .f32) (harg3 : arg3.IsWhole) (arg4 : Memref sig .tc .vmem S8x256 .f32) (harg4 : arg4.IsWhole) (hc0 : isFirst i) (hc1 : ¬isLast i)
    (x : Vec F S8x256x16x128 .f32) (y : S8x256.Idx) :
    ∃ pc ∈ (runFirst c i arg2 harg2 arg3 harg3 arg4 harg4 hc0 hc1 x).2.1, y ∈ pc.1.set :=
  View.cover_of_tiledL (runFirst c i arg2 harg2 arg3 harg3 arg4 harg4 hc0 hc1 x).2.1 S8x256.size (by sl_kernel_rfl) y

/-- The running total after a first tile. -/
def totalFirst (c : Dev nD) (i : grid0.Coords) (arg2 : Memref sig .tc .vmem S8x256x16x128 .f32) (harg2 : arg2.IsWhole) (arg3 : Memref sig .tc .vmem S8x256 .f32) (harg3 : arg3.IsWhole) (arg4 : Memref sig .tc .vmem S8x256 .f32) (harg4 : arg4.IsWhole) (hc0 : isFirst i) (hc1 : ¬isLast i)
    (x : Vec F S8x256x16x128 .f32) : Vec F S8x256 .f32 :=
  totalView.read (Elt F) (totalView.writes (Elt F) totalView.junk (runFirst c i arg2 harg2 arg3 harg3 arg4 harg4 hc0 hc1 x).2.1)

theorem total_cover_middle (c : Dev nD) (i : grid0.Coords) (arg2 : Memref sig .tc .vmem S8x256x16x128 .f32) (harg2 : arg2.IsWhole) (arg3 : Memref sig .tc .vmem S8x256 .f32) (harg3 : arg3.IsWhole) (arg4 : Memref sig .tc .vmem S8x256 .f32) (harg4 : arg4.IsWhole) (hc0 : ¬isFirst i) (hc1 : ¬isLast i)
    (x : Vec F S8x256x16x128 .f32) (s : Vec F S8x256 .f32) (y : S8x256.Idx) :
    ∃ pc ∈ (runMiddle c i arg2 harg2 arg3 harg3 arg4 harg4 hc0 hc1 x s).2.1, y ∈ pc.1.set :=
  View.cover_of_tiledL (runMiddle c i arg2 harg2 arg3 harg3 arg4 harg4 hc0 hc1 x s).2.1 S8x256.size (by sl_kernel_rfl) y

/-- The running total after a middle tile, over what the tile before left (`s`). -/
def totalMiddle (c : Dev nD) (i : grid0.Coords) (arg2 : Memref sig .tc .vmem S8x256x16x128 .f32) (harg2 : arg2.IsWhole) (arg3 : Memref sig .tc .vmem S8x256 .f32) (harg3 : arg3.IsWhole) (arg4 : Memref sig .tc .vmem S8x256 .f32) (harg4 : arg4.IsWhole) (hc0 : ¬isFirst i) (hc1 : ¬isLast i)
    (x : Vec F S8x256x16x128 .f32) (s : Vec F S8x256 .f32) : Vec F S8x256 .f32 :=
  totalView.read (Elt F) (totalView.writes (Elt F) totalView.junk (runMiddle c i arg2 harg2 arg3 harg3 arg4 harg4 hc0 hc1 x s).2.1)

theorem total_cover_last (c : Dev nD) (i : grid0.Coords) (arg2 : Memref sig .tc .vmem S8x256x16x128 .f32) (harg2 : arg2.IsWhole) (arg3 : Memref sig .tc .vmem S8x256 .f32) (harg3 : arg3.IsWhole) (arg4 : Memref sig .tc .vmem S8x256 .f32) (harg4 : arg4.IsWhole) (hc0 : ¬isFirst i) (hc1 : isLast i)
    (x : Vec F S8x256x16x128 .f32) (s : Vec F S8x256 .f32) (y : S8x256.Idx) :
    ∃ pc ∈ (runLast c i arg2 harg2 arg3 harg3 arg4 harg4 hc0 hc1 x s).2.1, y ∈ pc.1.set :=
  View.cover_of_tiledL (runLast c i arg2 harg2 arg3 harg3 arg4 harg4 hc0 hc1 x s).2.1 S8x256.size (by sl_kernel_rfl) y

/-- The running total after a last tile. -/
def totalLast (c : Dev nD) (i : grid0.Coords) (arg2 : Memref sig .tc .vmem S8x256x16x128 .f32) (harg2 : arg2.IsWhole) (arg3 : Memref sig .tc .vmem S8x256 .f32) (harg3 : arg3.IsWhole) (arg4 : Memref sig .tc .vmem S8x256 .f32) (harg4 : arg4.IsWhole) (hc0 : ¬isFirst i) (hc1 : isLast i)
    (x : Vec F S8x256x16x128 .f32) (s : Vec F S8x256 .f32) : Vec F S8x256 .f32 :=
  totalView.read (Elt F) (totalView.writes (Elt F) totalView.junk (runLast c i arg2 harg2 arg3 harg3 arg4 harg4 hc0 hc1 x s).2.1)

/-- The one store of a last tile covers the output block. -/
theorem out_cover_last (c : Dev nD) (i : grid0.Coords) (arg2 : Memref sig .tc .vmem S8x256x16x128 .f32) (harg2 : arg2.IsWhole) (arg3 : Memref sig .tc .vmem S8x256 .f32) (harg3 : arg3.IsWhole) (arg4 : Memref sig .tc .vmem S8x256 .f32) (harg4 : arg4.IsWhole) (hc0 : ¬isFirst i) (hc1 : isLast i)
    (x : Vec F S8x256x16x128 .f32) (s : Vec F S8x256 .f32) (y : S8x256.Idx) :
    ∃ pc ∈ (runLast c i arg2 harg2 arg3 harg3 arg4 harg4 hc0 hc1 x s).1, y ∈ pc.1.set :=
  View.cover_of_tiledL (runLast c i arg2 harg2 arg3 harg3 arg4 harg4 hc0 hc1 x s).1 S8x256.size (by sl_kernel_rfl) y

/-- The output block after a last tile. -/
def outLast (c : Dev nD) (i : grid0.Coords) (arg2 : Memref sig .tc .vmem S8x256x16x128 .f32) (harg2 : arg2.IsWhole) (arg3 : Memref sig .tc .vmem S8x256 .f32) (harg3 : arg3.IsWhole) (arg4 : Memref sig .tc .vmem S8x256 .f32) (harg4 : arg4.IsWhole) (hc0 : ¬isFirst i) (hc1 : isLast i)
    (x : Vec F S8x256x16x128 .f32) (s : Vec F S8x256 .f32) : Vec F S8x256 .f32 :=
  outView.read (Elt F) (outView.writes (Elt F) outView.junk (runLast c i arg2 harg2 arg3 harg3 arg4 harg4 hc0 hc1 x s).1)

/-- Away from a last tile nothing is stored into the output block: a placeholder nothing consults (the window is
    idle there and is not written back). -/
def outIdle : Vec F S8x256 .f32 := outView.read (Elt F) (outView.writes (Elt F) outView.junk [])

/-! ## The contents after each point -/

theorem not_last_of_first {k : ℕ} (h : k % 8 = 0) : ¬k % 8 = 7 := by omega

/-- After the body at position `n`: (the output block, the running total). A first tile starts afresh; a middle or a
    last tile starts from the running total the tile before left. -/
def contentsAfter (c : Dev nD) : (n : ℕ) → n < cfg0.N → Vec F S8x256 .f32 × Vec F S8x256 .f32
  | 0, hn => (outIdle, totalFirst c (grid0.coords ⟨0, hn⟩) (xBuf ⟨0, hn⟩) (xBuf_whole ⟨0, hn⟩) (outBuf ⟨0, hn⟩) (outBuf_whole ⟨0, hn⟩) totalBuf (Memref.isWhole_whole _) ((isFirst_iff ⟨0, hn⟩).mpr (Nat.zero_mod _)) (fun h => not_last_of_first (Nat.zero_mod 8) ((isLast_iff ⟨0, hn⟩).mp h)) (blockAt V c 0 ⟨0, hn⟩))
  | n + 1, hn =>
    if h0 : (n + 1) % 8 = 0 then
      (outIdle, totalFirst c (grid0.coords ⟨n + 1, hn⟩) (xBuf ⟨n + 1, hn⟩) (xBuf_whole ⟨n + 1, hn⟩) (outBuf ⟨n + 1, hn⟩) (outBuf_whole ⟨n + 1, hn⟩) totalBuf (Memref.isWhole_whole _) ((isFirst_iff ⟨n + 1, hn⟩).mpr h0) (fun h => not_last_of_first h0 ((isLast_iff ⟨n + 1, hn⟩).mp h)) (blockAt V c 0 ⟨n + 1, hn⟩))
    else if h1 : (n + 1) % 8 = 7 then
      (outLast c (grid0.coords ⟨n + 1, hn⟩) (xBuf ⟨n + 1, hn⟩) (xBuf_whole ⟨n + 1, hn⟩) (outBuf ⟨n + 1, hn⟩) (outBuf_whole ⟨n + 1, hn⟩) totalBuf (Memref.isWhole_whole _) (fun h => h0 ((isFirst_iff ⟨n + 1, hn⟩).mp h)) ((isLast_iff ⟨n + 1, hn⟩).mpr h1) (blockAt V c 0 ⟨n + 1, hn⟩) (contentsAfter c n (Nat.lt_of_succ_lt hn)).2,
       totalLast c (grid0.coords ⟨n + 1, hn⟩) (xBuf ⟨n + 1, hn⟩) (xBuf_whole ⟨n + 1, hn⟩) (outBuf ⟨n + 1, hn⟩) (outBuf_whole ⟨n + 1, hn⟩) totalBuf (Memref.isWhole_whole _) (fun h => h0 ((isFirst_iff ⟨n + 1, hn⟩).mp h)) ((isLast_iff ⟨n + 1, hn⟩).mpr h1) (blockAt V c 0 ⟨n + 1, hn⟩) (contentsAfter c n (Nat.lt_of_succ_lt hn)).2)
    else
      (outIdle, totalMiddle c (grid0.coords ⟨n + 1, hn⟩) (xBuf ⟨n + 1, hn⟩) (xBuf_whole ⟨n + 1, hn⟩) (outBuf ⟨n + 1, hn⟩) (outBuf_whole ⟨n + 1, hn⟩) totalBuf (Memref.isWhole_whole _) (fun h => h0 ((isFirst_iff ⟨n + 1, hn⟩).mp h)) (fun h => h1 ((isLast_iff ⟨n + 1, hn⟩).mp h)) (blockAt V c 0 ⟨n + 1, hn⟩) (contentsAfter c n (Nat.lt_of_succ_lt hn)).2)

theorem contentsAfter_first (c : Dev nD) (t : Fin cfg0.N) (h0 : t.val % 8 = 0) :
    contentsAfter V c t.val t.isLt = (outIdle, totalFirst c (grid0.coords t) (xBuf t) (xBuf_whole t) (outBuf t) (outBuf_whole t) totalBuf (Memref.isWhole_whole _) ((isFirst_iff t).mpr h0) (fun h => not_last_of_first h0 ((isLast_iff t).mp h)) (blockAt V c 0 t)) := by
  obtain ⟨n, hn⟩ := t
  cases n with
  | zero => exact rfl
  | succ n => exact (dif_pos h0).trans rfl

theorem contentsAfter_middle (c : Dev nD) (t : Fin cfg0.N) (h0 : ¬t.val % 8 = 0) (h1 : ¬t.val % 8 = 7) :
    contentsAfter V c t.val t.isLt = (outIdle, totalMiddle c (grid0.coords t) (xBuf t) (xBuf_whole t) (outBuf t) (outBuf_whole t) totalBuf (Memref.isWhole_whole _) (fun h => h0 ((isFirst_iff t).mp h)) (fun h => h1 ((isLast_iff t).mp h)) (blockAt V c 0 t) (contentsAfter V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem contentsAfter_last (c : Dev nD) (t : Fin cfg0.N) (h0 : ¬t.val % 8 = 0) (h1 : t.val % 8 = 7) :
    contentsAfter V c t.val t.isLt = (outLast c (grid0.coords t) (xBuf t) (xBuf_whole t) (outBuf t) (outBuf_whole t) totalBuf (Memref.isWhole_whole _) (fun h => h0 ((isFirst_iff t).mp h)) ((isLast_iff t).mpr h1) (blockAt V c 0 t) (contentsAfter V c (t.val - 1) (Nat.lt_of_le_of_lt (Nat.sub_le _ _) t.isLt)).2,
      totalLast c (grid0.coords t) (xBuf t) (xBuf_whole t) (outBuf t) (outBuf_whole t) totalBuf (Memref.isWhole_whole _) (fun h => h0 ((isFirst_iff t).mp h)) ((isLast_iff t).mpr h1) (blockAt V c 0 t) (contentsAfter V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the running total rides through the launch -/

/-- The second launch's staging buffers, which this launch never touches, each at some contents. -/
def bystanders (c : Dev nD) : sProp 𝕄 :=
  iprop((∃ d, owns (c : Thread nD τ) (Memref.whole cc1_stg0_0) fullShare d) ∗ (∃ d, owns (c : Thread nD τ) (Memref.whole cc1_stg0_1) fullShare d) ∗ (∃ d, owns (c : Thread nD τ) (Memref.whole cc1_stg1_0) fullShare d) ∗ (∃ d, owns (c : Thread nD τ) (Memref.whole cc1_stg1_1) fullShare d) ∗ (∃ d, owns (c : Thread nD τ) (Memref.whole cc1_stg2_0) fullShare d) ∗ (∃ d, owns (c : Thread nD τ) (Memref.whole cc1_stg2_1) fullShare d))

theorem rest_split (c : Dev nD) :
    (Pipeline.ΦA spec0 c : sProp 𝕄)
      = iprop(iprop((∃ d, owns (c : Thread nD τ) totalBuf fullShare d) ∗ bystanders c) ∗ (∃ r, prngReg c r)) := by
  rw [rest_eq]; rfl

/-- Before position `n`: at the launch's start, what the launch hands over (the running total at anything); later, the
    running total at what the point before left. -/
def carried (c : Dev nD) : (n : ℕ) → n ≤ cfg0.N → sProp 𝕄
  | 0, _ => Pipeline.ΦA spec0 c
  | n + 1, hn => iprop(iprop(owns (c : Thread nD τ) totalBuf fullShare ((contentsAfter V c n hn).2) ∗ bystanders c) ∗ (∃ r, prngReg c r))

theorem carried_zero (c : Dev nD) (n : ℕ) (h : n ≤ cfg0.N) (hz : n = 0) : carried V c n h = Pipeline.ΦA spec0 c := by
  subst hz; rfl

theorem carried_succ (c : Dev nD) (n : ℕ) (hn : n < cfg0.N) :
    carried V c (n + 1) hn = iprop(iprop(owns (c : Thread nD τ) totalBuf fullShare ((contentsAfter V c n hn).2) ∗ bystanders c) ∗ (∃ r, prngReg c r)) := rfl

theorem carried_pos (c : Dev nD) (n : ℕ) (h : n ≤ cfg0.N) (hz : n ≠ 0) :
    carried V c n h = iprop(iprop(owns (c : Thread nD τ) totalBuf fullShare ((contentsAfter V c (n - 1) (by omega)).2) ∗ bystanders c) ∗ (∃ r, prngReg c r)) := by
  cases n with
  | zero => exact absurd rfl hz
  | succ n => rfl

/-! ## The per-point contents handed to the pipeline -/

def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => (contentsAfter V c t.val t.isLt).1
  Φ t := carried V c t.val (Nat.le_of_lt_succ t.isLt)
  q _ := fullShare
  owed _ := 0

theorem A_eq (c : Dev nD) (w : Fin cfg0.W) : (dat V c).A w = V c (Pipeline.arrRef spec0 w) := by
  dsimp only [dat]

theorem carried_castSucc (c : Dev nD) (t : Fin cfg0.N) :
    (dat V c).Φ t.castSucc = carried V c t.val (Nat.le_of_lt t.isLt) := by
  dsimp only [dat]; simp only [Fin.coe_castSucc]

theorem after_x (c : Dev nD) (t : Fin cfg0.N) : (dat V c).after 0 t = blockAt V c 0 t := by dsimp only [dat]
theorem after_out (c : Dev nD) (t : Fin cfg0.N) : (dat V c).after 1 t = (contentsAfter V c t.val t.isLt).1 := by dsimp only [dat]

theorem before_x (c : Dev nD) (t : Fin cfg0.N) (d) : (dat V c).before 0 t d = blockAt V c 0 t :=
  before_x_of V (dat V c) (A_eq V c 0) (after_x V c) t d

/-! ## The obligation at a point -/

def bodyPre (c : Dev nD) (t : Fin cfg0.N) : sProp 𝕄 :=
  iprop((dat V c).Φ t.castSucc ∗ (dat V c).owesAt () t.castSucc
    ∗ (∃ d, owns (c : Thread nD τ) (xBuf t) fullShare ((dat V c).before 0 t d))
    ∗ (∃ d, owns (c : Thread nD τ) (outBuf t) fullShare ((dat V c).before 1 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
/-- The body at any point. The point's position among the eight tiles says which run applies; the invariant hands the
    body the running total at what the tile before left (at anything at the very first point) and takes it back at
    this point's contents; away from a last tile the output buffer goes back untouched. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x]
  rw [show (dat V c).owesAt () t.succ = (dat V c).owesAt () t.castSucc from rfl]
  rw [show (dat V c).Φ t.succ = carried V c (t.val + 1) t.isLt from rfl, carried_succ]
  have hN : t.val < 32 := lt_of_lt_of_eq t.isLt (show cfg0.N = 32 from N_0)
  rw [show (dat V c).leavesExact 0 t = owns (c : Thread nD τ) (xBuf t) fullShare ((dat V c).after 0 t) from by
    unfold Dat.leavesExact; rw [x_live t], after_x]
  by_cases h0 : t.val % 8 = 0
  · have h1 : ¬t.val % 8 = 7 := not_last_of_first h0
    rw [Dat.leavesExact_idle (dat V c) 1 t (out_idle_first t ((isFirst_iff t).mpr h0) (fun h => h1 ((isLast_iff t).mp h))) (out_noflush_first t ((isFirst_iff t).mpr h0) (fun h => h1 ((isLast_iff t).mp h)))]
    rw [contentsAfter_first V c t h0]
    unfold totalFirst; (try dsimp only)
    by_cases hz : t.val = 0
    · rw [carried_castSucc V c t, carried_zero V c _ _ hz, rest_split]
      iintro ⟨⟨⟨HS0, Hby⟩, Hg⟩, Ho, ⟨%d0, H0⟩, ⟨%d1, H1⟩⟩
      iapply ((runFirst c (grid0.coords t) _ _ _ _ _ _ ((isFirst_iff t).mpr h0) (fun h => not_last_of_first h0 ((isLast_iff t).mp h)) (blockAt V c 0 t)).2.2 _ Set.univ _)
      isplitl [H0]; · iexact H0
      isplitl [H1]; · iexact H1
      isplitl [HS0]; · iexact HS0
      iintro ⟨H0, H1, ⟨%es0, HS0⟩⟩
      isplitl [HS0 Hby Hg]
      · isplitl [HS0 Hby]
        · isplitl [HS0]
          · unfold owns; iexists _; isplitr
            swap; · iexact HS0
            ipureintro; exact View.read_writes_of_cover _ _ _ _ _ (total_cover_first c _ _ _ _ _ _ _ _ _ _)
          iexact Hby
        iexact Hg
      isplitl [Ho]; · iexact Ho
      isplitl [H0]; · iexact H0
      iexists _; iexact H1
    · rw [carried_castSucc V c t, carried_pos V c _ _ hz]
      iintro ⟨⟨⟨HS0, Hby⟩, Hg⟩, Ho, ⟨%d0, H0⟩, ⟨%d1, H1⟩⟩
      iapply ((runFirst c (grid0.coords t) _ _ _ _ _ _ ((isFirst_iff t).mpr h0) (fun h => not_last_of_first h0 ((isLast_iff t).mp h)) (blockAt V c 0 t)).2.2 _ Set.univ _)
      isplitl [H0]; · iexact H0
      isplitl [H1]; · iexact H1
      isplitl [HS0]; · iexists _; iexact HS0
      iintro ⟨H0, H1, ⟨%es0, HS0⟩⟩
      isplitl [HS0 Hby Hg]
      · isplitl [HS0 Hby]
        · isplitl [HS0]
          · unfold owns; iexists _; isplitr
            swap; · iexact HS0
            ipureintro; exact View.read_writes_of_cover _ _ _ _ _ (total_cover_first c _ _ _ _ _ _ _ _ _ _)
          iexact Hby
        iexact Hg
      isplitl [Ho]; · iexact Ho
      isplitl [H0]; · iexact H0
      iexists _; iexact H1
  · have hz : t.val ≠ 0 := fun e => h0 (by rw [e])
    by_cases h1 : t.val % 8 = 7
    · rw [show (dat V c).leavesExact 1 t = owns (c : Thread nD τ) (outBuf t) fullShare ((dat V c).after 1 t) from by
        unfold Dat.leavesExact; rw [out_live_last t (fun h => h0 ((isFirst_iff t).mp h)) ((isLast_iff t).mpr h1)], after_out]
      rw [contentsAfter_last V c t h0 h1]
      unfold outLast totalLast; (try dsimp only)
      rw [carried_castSucc V c t, carried_pos V c _ _ hz]
      iintro ⟨⟨⟨HS0, Hby⟩, Hg⟩, Ho, ⟨%d0, H0⟩, ⟨%d1, H1⟩⟩
      iapply ((runLast c (grid0.coords t) _ _ _ _ _ _ (fun h => h0 ((isFirst_iff t).mp h)) ((isLast_iff t).mpr h1) (blockAt V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hby Hg]
      · isplitl [HS0 Hby]
        · isplitl [HS0]
          · unfold owns; iexists _; isplitr
            swap; · iexact HS0
            ipureintro; exact View.read_writes_of_cover _ _ _ _ _ (total_cover_last c _ _ _ _ _ _ _ _ _ _ _)
          iexact Hby
        iexact Hg
      isplitl [Ho]; · iexact Ho
      isplitl [H0]; · iexact H0
      unfold owns; iexists _; isplitr
      swap; · iexact H1
      ipureintro; exact View.read_writes_of_cover _ _ _ _ _ (out_cover_last c _ _ _ _ _ _ _ _ _ _ _)
    · rw [Dat.leavesExact_idle (dat V c) 1 t (out_idle_middle t (fun h => h0 ((isFirst_iff t).mp h)) (fun h => h1 ((isLast_iff t).mp h))) (out_noflush_middle t (fun h => h0 ((isFirst_iff t).mp h)) (fun h => h1 ((isLast_iff t).mp h)))]
      rw [contentsAfter_middle V c t h0 h1]
      unfold totalMiddle; (try dsimp only)
      rw [carried_castSucc V c t, carried_pos V c _ _ hz]
      iintro ⟨⟨⟨HS0, Hby⟩, Hg⟩, Ho, ⟨%d0, H0⟩, ⟨%d1, H1⟩⟩
      iapply ((runMiddle c (grid0.coords t) _ _ _ _ _ _ (fun h => h0 ((isFirst_iff t).mp h)) (fun h => h1 ((isLast_iff t).mp h)) (blockAt V c 0 t) _).2.2 _ Set.univ _)
      isplitl [H0]; · iexact H0
      isplitl [H1]; · iexact H1
      isplitl [HS0]; · iexact HS0
      iintro ⟨H0, H1, ⟨%es0, HS0⟩⟩
      isplitl [HS0 Hby Hg]
      · isplitl [HS0 Hby]
        · isplitl [HS0]
          · unfold owns; iexists _; isplitr
            swap; · iexact HS0
            ipureintro; exact View.read_writes_of_cover _ _ _ _ _ (total_cover_middle c _ _ _ _ _ _ _ _ _ _ _)
          iexact Hby
        iexact Hg
      isplitl [Ho]; · iexact Ho
      isplitl [H0]; · iexact H0
      iexists _; iexact H1

theorem body_obligation (c : Dev nD) : BodyObligation (dat (F := F) V c) (defs₀ (F := F)) Variants.none () Set.univ := fun t => by
  rw [bigSep_W0, bigSep_W0]
  exact body_at V c t

/-- What the launch hands the region is the invariant before the first point. -/
theorem enter (c : Dev nD) : Pipeline.ΦA spec0 c ⊢ (dat V c).Φ 0 := by
  rw [show (dat V c).Φ 0 = carried V c 0 (Nat.zero_le _) from rfl, carried_zero V c 0 _ rfl]
  try exact Idealize.SL.BI.Entails.refl _

/-- After the last point the invariant gives back what the launch handed over: the running total's contents are forgotten. -/
theorem leave (c : Dev nD) : (dat V c).Φ (Fin.last cfg0.N) ⊢ Pipeline.ΦA spec0 c := by
  have ht : (Fin.last cfg0.N).val ≠ 0 := by rw [Fin.val_last]; have : cfg0.N = 32 := N_0; omega
  rw [show (dat V c).Φ (Fin.last cfg0.N) = carried V c (Fin.last cfg0.N).val (Nat.le_of_lt_succ (Fin.last cfg0.N).isLt) from rfl, carried_pos V c _ _ ht, rest_split]
  iintro ⟨⟨HS0, Hby⟩, Hg⟩
  isplitl [HS0 Hby]
  · isplitl [HS0]
    · iexists _; iexact HS0
    iexact Hby
  iexact Hg

end Cert.KernelIdeal.Pool

end
-- ==== Proof.ScaleFrame.lean ====
/-
  The second launch: every grid point multiplies its 8×256×8×128 block of the feature map by the
  8×256 block of per-(image, channel) gates, spread over the two spatial axes, and stores the
  product over the whole output block. Nothing is kept between points, so the body at a point is
  one triple: from the two input blocks to the product block. This module states that triple,
  the per-point contents it gives the pipeline, and the obligation the launch asks for, at any
  contents `V` of the core's buffers on entry.
-/
import proofs.«104173_j50156628082926_1_alg».proof.Proof.Gen.KernelIdeal.Launch
import proofs.«104173_j50156628082926_1_alg».proof.Proof.Gen.KernelIdeal.Skeleton
import proofs.«104173_j50156628082926_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Scale

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point sees -/

/-- The block of window `w`'s array that grid point `t` addresses, read off the entry contents. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature-map window holds its block at every point: it is refetched at each one. -/
theorem before_x_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The gate window holds its block at every point: it is fetched when the image index moves, and between
    fetches the block index does not change. -/
theorem before_s_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The body's one store -/

abbrev wholeBlock : Rect S8x256x8x128 := Rect.unit (s := S8x256x8x128) ![0, 0, 0, 0] S8x256x8x128.size inb_S8x256x8x128_S8x256x8x128_0_0_0_0
abbrev wholeGate : Rect S8x256 := Rect.unit (s := S8x256) ![0, 0] S8x256.size inb_S8x256_S8x256_0_0

/-- What the body leaves in the output block: the product of the feature block and the spread gates,
    stored over the whole block. -/
def product (x : Vec F S8x256x8x128 .f32) (s : Vec F S8x256 .f32) : Vec F S8x256x8x128 .f32 :=
  View.canon [⟨wholeBlock, k1_pay1 (View.ld s wholeGate) (View.ld x wholeBlock)⟩]

/-- The one store covers the block. -/
theorem product_cover (p : Vec F S8x256x8x128 .f32) (y : S8x256x8x128.Idx) :
    ∃ pc ∈ ([⟨wholeBlock, p⟩] : List (View.Piece (Elt F) S8x256x8x128 .f32)), y ∈ pc.1.set :=
  View.cover_of_tiled [⟨wholeBlock, p⟩] S8x256x8x128.size (by rfl) y

/-! ## The body's triple -/

set_option maxHeartbeats 1000000 in
/-- On whole staging buffers, the inputs at `x` and `s` and the output at anything, the body runs and leaves the
    inputs as they were and the output at `product x s`. -/
theorem body_triple (c : Dev nD) (E : Set ℕ) (i : grid1.Coords) (arg2 : Memref sig .tc .vmem S8x256x8x128 .f32) (harg2 : arg2.IsWhole)
    (arg3 : Memref sig .tc .vmem S8x256 .f32) (harg3 : arg3.IsWhole) (arg4 : Memref sig .tc .vmem S8x256x8x128 .f32) (harg4 : arg4.IsWhole)
    (x : Vec F S8x256x8x128 .f32) (s : Vec F S8x256 .f32) (K : PUnit → sProp 𝕄) :
    iprop(owns (c : Thread nD τ) arg2 fullShare x ∗ owns (c : Thread nD τ) arg3 fullShare s ∗ (∃ d, owns (c : Thread nD τ) arg4 fullShare d)
        ∗ (iprop(owns (c : Thread nD τ) arg2 fullShare x ∗ owns (c : Thread nD τ) arg3 fullShare s ∗ owns (c : Thread nD τ) arg4 fullShare (product x s)) -∗ K ⟨⟩))
      ⊢ wp frame (wpE (defs₀ (F := F)) Variants.none c none) E (cc1__scale_kernel i arg2 harg2 arg3 harg3 arg4 harg4) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (product_cover _)

/-! ## The per-point contents handed to the pipeline -/

/-- After the body at point `t`: each input buffer still at its block, the output buffer at the product of the two. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => product (blockAt V c 0 t) (blockAt V c 1 t)
  Φ _ := Pipeline.ΦA spec1 c
  q _ := fullShare
  owed _ := 0

theorem A_eq (c : Dev nD) (w : Fin cfg1.W) : (dat V c).A w = V c (Pipeline.arrRef spec1 w) := by
  dsimp only [dat]
theorem after_x (c : Dev nD) (t : Fin cfg1.N) : (dat V c).after 0 t = blockAt V c 0 t := by dsimp only [dat]
theorem after_s (c : Dev nD) (t : Fin cfg1.N) : (dat V c).after 1 t = blockAt V c 1 t := by dsimp only [dat]
theorem after_out (c : Dev nD) (t : Fin cfg1.N) : (dat V c).after 2 t = product (blockAt V c 0 t) (blockAt V c 1 t) := by dsimp only [dat]

theorem before_x (c : Dev nD) (t : Fin cfg1.N) (d) : (dat V c).before 0 t d = blockAt V c 0 t :=
  before_x_of V (dat V c) (A_eq V c 0) (after_x V c) t d
theorem before_s (c : Dev nD) (t : Fin cfg1.N) (d) : (dat V c).before 1 t d = blockAt V c 1 t :=
  before_s_of V (dat V c) (A_eq V c 1) (after_s V c) t d

/-! ## The obligation at a point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: both input buffers hold their blocks, so the triple applies; the region's invariant and
    the core's dues pass through untouched. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_x, before_s]
  rw [show (dat V c).Φ t.succ = (dat V c).Φ t.castSucc from rfl,
    show (dat V c).owesAt () t.succ = (dat V c).owesAt () t.castSucc from rfl,
    after_x, after_s, after_out]
  iintro ⟨HΦ, Ho, ⟨%d0, H0⟩, ⟨%d1, H1⟩, ⟨%d2, H2⟩⟩
  iapply (body_triple c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W1, bigSep_W1]
  exact body_at V c t

end Cert.KernelIdeal.Scale

end
-- ==== Proof.WholeRun.lean ====
/-
  The whole program: the pooling launch, the gate's host operations, the scaling launch, in order. The contents of
  the core's buffers are followed from the launch to the return — `held0` at launch, `held1` after the pooling launch
  (its output array at what its write-backs leave), `held2…held4` after the three stretches of host operations, `held5`
  after the scaling launch — and every weakly fair execution is shown to terminate with every buffer at `held5`.
  From that one run come both the frame (the three arguments are never written, so `held5` has them as launched)
  and the value of the result array.
-/
import proofs.«104173_j50156628082926_1_alg».proof.Proof.PoolFrame
import proofs.«104173_j50156628082926_1_alg».proof.Proof.ScaleFrame
import proofs.«104173_j50156628082926_1_alg».proof.Proof.Gen.KernelIdeal.Regions
import Idealize.ShloMosaic.Lib.Pipeline.RegionsLoop

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents from item to item -/

/-- At launch. -/
abbrev held0 : Dev nD → Valuation τ sig (Elt F) := fun c b => (s₀ m ρ).mem ((c : Dev nD), b)
abbrev entry0 : (c : Dev nD) → (b : Ref sig .tc) → Buf (Elt F) ((c : Thread nD τ).loc b) := fun c b => held0 m ρ c b
/-- After the pooling launch: its arrays at what the pipeline leaves, every other buffer untouched. -/
def held1 (c : Dev nD) : Valuation τ sig (Elt F) :=
  Pipeline.withArrays spec0 c (held0 m ρ c) fun w => (Pool.dat (entry0 m ρ) c).arrAt w cfg0.N
theorem held1_arr (c : Dev nD) (w : Fin cfg0.W) :
    held1 m ρ c (Proc.devRef .tc (Pipeline.arrRef spec0 w)) = (Pool.dat (entry0 m ρ) c).arrAt w cfg0.N := by
  unfold held1; exact Pipeline.withArrays_arr spec0 launch0.win.arr_inj c _ _ w
theorem held1_of_ne (c : Dev nD) (b : Ref sig .tc) (hb : ∀ w, Pipeline.arrRef spec0 w ≠ b) :
    held1 m ρ c (Proc.devRef .tc b) = held0 m ρ c (Proc.devRef .tc b) := by
  unfold held1; exact Pipeline.withArrays_of_ne spec0 c _ _ b hb
abbrev exit0 : (c : Dev nD) → (b : Ref sig .tc) → Buf (Elt F) ((c : Thread nD τ).loc b) := fun c b => held1 m ρ c b
theorem exit0_arr (c : Dev nD) (w : Fin cfg0.W) : (Pool.dat (entry0 m ρ) c).arrAt w cfg0.N = exit0 m ρ c (Pipeline.arrRef spec0 w) :=
  (held1_arr m ρ c w).symm
theorem exit0_rest (c : Dev nD) : ∀ b, b ∉ Finset.univ.image (Pipeline.arrRef spec0) → exit0 m ρ c b = entry0 m ρ c b :=
  fun b hb => held1_of_ne m ρ c b fun w e => hb (Finset.mem_image.mpr ⟨w, Finset.mem_univ _, e⟩)

/-- After the first matrix product, the clamp at zero, and the rest of the gate. -/
abbrev held2 : Dev nD → Valuation τ sig (Elt F) := fun c => StableHlo.after hostOps1 (held1 m ρ c)
abbrev held3 : Dev nD → Valuation τ sig (Elt F) := fun c => StableHlo.after hostOps1_1 (held2 m ρ c)
abbrev held4 : Dev nD → Valuation τ sig (Elt F) := fun c => StableHlo.after hostOps1_2 (held3 m ρ c)
abbrev entry1 : (c : Dev nD) → (b : Ref sig .tc) → Buf (Elt F) ((c : Thread nD τ).loc b) := fun c b => held4 m ρ c b
/-- After the scaling launch. -/
def held5 (c : Dev nD) : Valuation τ sig (Elt F) :=
  Pipeline.withArrays spec1 c (held4 m ρ c) fun w => (Scale.dat (entry1 m ρ) c).arrAt w cfg1.N
theorem held5_arr (c : Dev nD) (w : Fin cfg1.W) :
    held5 m ρ c (Proc.devRef .tc (Pipeline.arrRef spec1 w)) = (Scale.dat (entry1 m ρ) c).arrAt w cfg1.N := by
  unfold held5; exact Pipeline.withArrays_arr spec1 launch1.win.arr_inj c _ _ w
theorem held5_of_ne (c : Dev nD) (b : Ref sig .tc) (hb : ∀ w, Pipeline.arrRef spec1 w ≠ b) :
    held5 m ρ c (Proc.devRef .tc b) = held4 m ρ c (Proc.devRef .tc b) := by
  unfold held5; exact Pipeline.withArrays_of_ne spec1 c _ _ b hb
abbrev exit1 : (c : Dev nD) → (b : Ref sig .tc) → Buf (Elt F) ((c : Thread nD τ).loc b) := fun c b => held5 m ρ c b
theorem exit1_arr (c : Dev nD) (w : Fin cfg1.W) : (Scale.dat (entry1 m ρ) c).arrAt w cfg1.N = exit1 m ρ c (Pipeline.arrRef spec1 w) :=
  (held5_arr m ρ c w).symm
theorem exit1_rest (c : Dev nD) : ∀ b, b ∉ Finset.univ.image (Pipeline.arrRef spec1) → exit1 m ρ c b = entry1 m ρ c b :=
  fun b hb => held5_of_ne m ρ c b fun w e => hb (Finset.mem_image.mpr ⟨w, Finset.mem_univ _, e⟩)

/-! ## The arguments are never written -/

/-- The feature map reaches the scaling launch as launched: both launches only read it, no host operation writes it. -/
theorem held4_x (c : Dev nD) : held4 m ρ c (Proc.devRef .tc main_arg0) = m ((c : Thread nD τ).loc main_arg0) :=
  calc held4 m ρ c (Proc.devRef .tc main_arg0)
    _ = held3 m ρ c (Proc.devRef .tc main_arg0) := (StableHlo.after_of_writes_sub hostOps1_2 _ hostOps1_2_writes (by decide))
    _ = held2 m ρ c (Proc.devRef .tc main_arg0) := (StableHlo.after_of_writes_sub hostOps1_1 _ hostOps1_1_writes (by decide))
    _ = held1 m ρ c (Proc.devRef .tc main_arg0) := (StableHlo.after_of_writes_sub hostOps1 _ hostOps1_writes (by decide))
    _ = held0 m ρ c (Proc.devRef .tc main_arg0) := (held1_arr m ρ c 0).trans (((Pool.dat (entry0 m ρ) c).arrAt_in 0 rfl _).trans (Pool.A_eq (entry0 m ρ) c 0))
    _ = m ((c : Thread nD τ).loc main_arg0) := rfl
theorem held5_x (c : Dev nD) : held5 m ρ c (Proc.devRef .tc main_arg0) = m ((c : Thread nD τ).loc main_arg0) :=
  ((held5_arr m ρ c 0).trans (((Scale.dat (entry1 m ρ) c).arrAt_in 0 rfl _).trans (Scale.A_eq (entry1 m ρ) c 0))).trans (held4_x m ρ c)
theorem held4_w1 (c : Dev nD) : held4 m ρ c (Proc.devRef .tc main_arg1) = m ((c : Thread nD τ).loc main_arg1) :=
  calc held4 m ρ c (Proc.devRef .tc main_arg1)
    _ = held3 m ρ c (Proc.devRef .tc main_arg1) := (StableHlo.after_of_writes_sub hostOps1_2 _ hostOps1_2_writes (by decide))
    _ = held2 m ρ c (Proc.devRef .tc main_arg1) := (StableHlo.after_of_writes_sub hostOps1_1 _ hostOps1_1_writes (by decide))
    _ = held1 m ρ c (Proc.devRef .tc main_arg1) := (StableHlo.after_of_writes_sub hostOps1 _ hostOps1_writes (by decide))
    _ = held0 m ρ c (Proc.devRef .tc main_arg1) := held1_of_ne m ρ c main_arg1 (by decide)
    _ = m ((c : Thread nD τ).loc main_arg1) := rfl
theorem held5_w1 (c : Dev nD) : held5 m ρ c (Proc.devRef .tc main_arg1) = m ((c : Thread nD τ).loc main_arg1) :=
  (held5_of_ne m ρ c main_arg1 (by decide)).trans (held4_w1 m ρ c)
theorem held4_w2 (c : Dev nD) : held4 m ρ c (Proc.devRef .tc main_arg2) = m ((c : Thread nD τ).loc main_arg2) :=
  calc held4 m ρ c (Proc.devRef .tc main_arg2)
    _ = held3 m ρ c (Proc.devRef .tc main_arg2) := (StableHlo.after_of_writes_sub hostOps1_2 _ hostOps1_2_writes (by decide))
    _ = held2 m ρ c (Proc.devRef .tc main_arg2) := (StableHlo.after_of_writes_sub hostOps1_1 _ hostOps1_1_writes (by decide))
    _ = held1 m ρ c (Proc.devRef .tc main_arg2) := (StableHlo.after_of_writes_sub hostOps1 _ hostOps1_writes (by decide))
    _ = held0 m ρ c (Proc.devRef .tc main_arg2) := held1_of_ne m ρ c main_arg2 (by decide)
    _ = m ((c : Thread nD τ).loc main_arg2) := rfl
theorem held5_w2 (c : Dev nD) : held5 m ρ c (Proc.devRef .tc main_arg2) = m ((c : Thread nD τ).loc main_arg2) :=
  (held5_of_ne m ρ c main_arg2 (by decide)).trans (held4_w2 m ρ c)

/-! ## The two launches' proof data, and what rides along -/

/-- Each launch's per-point contents, at the buffer contents it is entered from. -/
def perLaunch : (p : Fin 2) → (c : Dev nD) → Dat τ (Elt F) Unit ℕ (UR sig nD τ) ℕ (Pipeline.pin (pcfgs (F := F)) adm p) c
  | ⟨0, _⟩ => fun c => Pool.dat (entry0 m ρ) c
  | ⟨1, _⟩ => fun c => Scale.dat (entry1 m ρ) c
abbrev noVariants : Variants := Variants.none
abbrev noPairs : GSem nD τ sig → Finset Unit := fun _ => ∅
abbrev noLevels : GSem nD τ sig → Unit → ℕ := fun _ _ => 0
/-- Beside the buffers every item carries the random-number register at some state and the core's dues, which are none. -/
abbrev riding (c : Dev nD) : sProp 𝕄 := iprop((∃ r, prngReg c r) ∗ ∃ W, owes (c : Thread nD τ) (0 : CellTallies nD τ sig Unit) W)

/-- A stretch of host operations as an item of the program. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevels :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

theorem mem_held (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last item's exit without the dues. -/
abbrev atReturn (c : Dev nD) : sProp 𝕄 := iprop(StableHlo.held (c : Thread nD τ) (Pipeline.ucRefs τ sig) (held5 m ρ c) ∗ ∃ r, prngReg c r)

/-! ## The launches as items -/

set_option backward.isDefEq.respectTransparency.types false in
/-- The pooling launch, entered with every buffer at `held0` and left with every buffer at `held1`. Its arrays are taken
    out of the buffers on entry and put back at their final contents on exit; the running total's buffer and the
    random-number register enter the launch's invariant and come back out of it. -/
def poolItem : Pipeline.RegionSeg (pcfgs (F := F)) adm (perLaunch m ρ) () defs₀ noVariants noPairs noLevels 0 where
  win := launch0.win.to₀
  block_pos := launch0.block_pos
  stage_whole := launch0.stage_whole
  K := PEmpty
  osem k := k.elim
  ho := Pipeline.OwnSemFacts.none _
  hbody c := (Pool.body_obligation (entry0 m ρ) c).loose
  hwaits := Pipeline.hwaits_of_owed_zero _ _ _ _ noPairs noLevels 0 fun _ _ => rfl
  pre c := iprop(StableHlo.held (c : Thread nD τ) (Pipeline.ucRefs τ sig) (held0 m ρ c) ∗ riding c)
  post c := iprop(StableHlo.held (c : Thread nD τ) (Pipeline.ucRefs τ sig) (held1 m ρ c) ∗ riding c)
  X c := iprop(∃ r, prngReg c r)
  Y c := iprop(∃ r, prngReg c r)
  Z c := Pipeline.unscopedRest (Ix := Unit) (Name := ℕ) (U := UR sig nD τ) (Lvl := ℕ) spec0 c (entry0 m ρ c)
  hentry c := by
    rw [Pipeline.ownSems0_none]
    have hsplit := Pipeline.arrays_of_unscopedBufs (p := 0) (pcfgs (F := F)) adm (perLaunch m ρ) launch0.win launch0.arr_whole c
      ((perLaunch m ρ 0 c).share_full fun _ => rfl) (entry0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (perLaunch m ρ 0 c).Φ 0 from Pool.enter (entry0 m ρ) c)
    unfold Pipeline.ΦA
    iintro ⟨Hp, -, Hr⟩
    isplitl [Hr]; · iexact Hr
    iexact Hp
  hout c := by
    rw [Pipeline.ownSems0_none]
    refine BIBase.Entails.trans (show (perLaunch m ρ 0 c).Φ (Fin.last _) ⊢ Pipeline.ΦA spec0 c from Pool.leave (entry0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (perLaunch m ρ) ((perLaunch m ρ 0 c).share_full fun _ => rfl)
      (entry0 m ρ c) (exit0 m ρ c) ((perLaunch m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scaling launch, entered with every buffer at `held4` and left with every buffer at `held5`; nothing is kept
    between its points, so its invariant is only what the launch hands over. -/
def scaleItem : Pipeline.RegionSeg (pcfgs (F := F)) adm (perLaunch m ρ) () defs₀ noVariants noPairs noLevels 1 where
  win := launch1.win.to₀
  block_pos := launch1.block_pos
  stage_whole := launch1.stage_whole
  K := PEmpty
  osem k := k.elim
  ho := Pipeline.OwnSemFacts.none _
  hbody c := (Scale.body_obligation (entry1 m ρ) c).loose
  hwaits := Pipeline.hwaits_of_owed_zero _ _ _ _ noPairs noLevels 1 fun _ _ => rfl
  pre c := iprop(StableHlo.held (c : Thread nD τ) (Pipeline.ucRefs τ sig) (held4 m ρ c) ∗ riding c)
  post c := iprop(atReturn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (entry1 m ρ c)
  hentry c := by
    rw [Pipeline.ownSems0_none]
    have hsplit := Pipeline.arrays_of_unscopedBufs (p := 1) (pcfgs (F := F)) adm (perLaunch m ρ) launch1.win launch1.arr_whole c
      ((perLaunch m ρ 1 c).share_full fun _ => rfl) (entry1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (perLaunch m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (perLaunch m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (perLaunch m ρ) ((perLaunch m ρ 1 c).share_full fun _ => rfl)
      (entry1 m ρ c) (exit1 m ρ c) ((perLaunch m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its five items, and the run -/

abbrev items : List (Pipeline.Seg (pcfgs (F := F)) adm (perLaunch m ρ) () defs₀ noVariants noPairs noLevels) :=
  [ .region (poolItem m ρ),
    .host (hostItem hostOps1 hostOps1_sub hostOps1_fresh (held1 m ρ)),
    .host (hostItem hostOps1_1 hostOps1_1_sub hostOps1_1_fresh (held2 m ρ)),
    .host (hostItem hostOps1_2 hostOps1_2_sub hostOps1_2_fresh (held3 m ρ)),
    .region (scaleItem m ρ) ]

theorem main_items (c : Dev nD) : main (F := F) c = Pipeline.Seg.run (items m ρ) := (main_chain c).trans (by chain_rfl)

set_option backward.isDefEq.respectTransparency.types false in
/-- Every weakly fair execution of the program from memory `m` with zero counters terminates, and in every final state
    every buffer that outlives the launches holds what `held5` says. -/
theorem run : θ_run defs (onTc (τ := τ) (main (F := F))) ⟨m, fun _ => 0, ρ⟩ (fun r => ∀ c : Dev nD,
      ∀ b ∈ Pipeline.ucRefs τ sig, r.2.mem (((c : Thread nD τ)).1, b) = held5 m ρ c b) :=
  Pipeline.θ_run_regions_kit (pcfgs (F := F)) adm (perLaunch m ρ) () cellOf_inj emb₁ defs₀ noVariants noPairs noLevels m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (held0 m ρ c) ∗ riding c)) (Tₙ := atReturn m ρ)
    (hch := ⟨fun _ => .rfl, fun _ => .rfl, fun _ => .rfl, fun _ => .rfl, fun _ => .rfl, fun _ => .rfl⟩)
    (hinit := by
      refine Pipeline.initEach noPairs noLevels fun c => ?_
      rw [show unscopedBufs c (fun b => m ((c : Thread nD τ).loc b)) = StableHlo.held (c : Thread nD τ) (Pipeline.ucRefs τ sig) (held0 m ρ c)
        from Pipeline.unscopedBufs_held c (held0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = held5 m ρ c b)
    (hfin := fun c s' => by
      iintro ⟨⟨Hh, -⟩, HSI⟩
      unfold StableHlo.held
      imodintro
      iapply (pointsTo_read_all (Pipeline.ucRefs τ sig) (fun b => (((c : Thread nD τ)).1, b)) (held5 m ρ c) s')
      isplitl [Hh] <;> iassumption)
    (hQ := fun s h c => h c)

/-- The frame: every execution terminates and the three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_held main_arg0 (by decide))).trans (held5_x m ρ c),
     (h c _ (mem_held main_arg1 (by decide))).trans (held5_w1 m ρ c),
     (h c _ (mem_held main_arg2 (by decide))).trans (held5_w2 m ρ c)⟩) (run m ρ)

/-- The result array after the run: what the scaling launch's write-backs leave. -/
theorem run_result : θ_run defs (onTc (τ := τ) (main (F := F))) ⟨m, fun _ => 0, ρ⟩ (fun r => ∀ c : Dev nD,
      r.2.mem ((c.tc : Thread nD τ).loc main_v10) = (Scale.dat (entry1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_held main_v10 (by decide))).trans (held5_arr m ρ c 2),
     (h c _ (mem_held main_arg0 (by decide))).trans (held5_x m ρ c),
     (h c _ (mem_held main_arg1 (by decide))).trans (held5_w1 m ρ c),
     (h c _ (mem_held main_arg2 (by decide))).trans (held5_w2 m ρ c)⟩) (run m ρ)

end Cert.KernelIdeal.Whole

end
-- ==== Proof.Gate.lean ====
/-
  Between the two launches the program computes the gate on the host: the 32×256 pooled means times `w1`
  (contracting the channel axis), clamped below at zero, times `w2` (contracting the 16 bottleneck channels),
  and then the logistic function 1 / (1 + exp(−·)). This module names that chain as ONE function of the pooled
  array and the two weight arrays, and reads the gate array the scaling launch is entered with as that function
  of what the pooling launch left.
-/
import proofs.«104173_j50156628082926_1_alg».proof.Proof.WholeRun

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The gate: a two-layer bottleneck with a clamp at zero between the layers and the logistic function at the end. -/
def gate (y : FVec F S32x256 .f32) (w1 : FVec F S16x256 .f32) (w2 : FVec F S256x16 .f32) : FVec F S32x256 .f32 :=
  Host.divf (broadcastInDim S32x256 ![] bcast_S_S32x256 (constant (F := F) S_ .f32 0x3F800000#32))
    (addf (broadcastInDim S32x256 ![] bcast_S_S32x256 (constant (F := F) S_ .f32 0x3F800000#32))
      (Host.exp (Host.negf (Host.dotGeneral dot_S32x16_S256x16_S32x256_1_1_0_0_n_n none
        (maximumf (Host.dotGeneral dot_S32x256_S16x256_S32x16_1_1_0_0_n_n none y w1)
          (broadcastInDim S32x16 ![] bcast_S_S32x16 (constant (F := F) S_ .f32 0x00000000#32))) w2))))

variable (m : (ℓ : Loc nD τ sig) → Buf (Elt F) ℓ) (ρ : Dev nD → PrngReg)

/-- The gate array the scaling launch is entered with is the gate of what the pooling launch left in its output array
    and of the two weight arrays as launched. -/
theorem gate_read (c : Dev nD) :
    (held4 m ρ c (Proc.devRef .tc main_v9) : FVec F S32x256 .f32)
      = gate (held1 m ρ c (Proc.devRef .tc main_v0)) (m ((c : Thread nD τ).loc main_arg1)) (m ((c : Thread nD τ).loc main_arg2)) := by
  have e1 : held1 m ρ c (Proc.devRef .tc main_arg1) = m ((c : Thread nD τ).loc main_arg1) := held1_of_ne m ρ c main_arg1 (by decide)
  have e2 : held1 m ρ c (Proc.devRef .tc main_arg2) = m ((c : Thread nD τ).loc main_arg2) := held1_of_ne m ρ c main_arg2 (by decide)
  rw [← e1, ← e2]
  show StableHlo.after hostOps1_2 (StableHlo.after hostOps1_1 (StableHlo.after hostOps1 (held1 m ρ c))) (Proc.devRef .tc main_v9) = _
  after_results
  rfl

end Cert.KernelIdeal.Whole

end
-- ==== Proof.Spec.lean ====
/-
  What both programs compute, written once over literal shapes.

  For a feature map `X` of shape 32×256×128×128, the squeeze is the mean over the two spatial axes,
  the excitation is a two-layer gate on the 32×256 means (a matrix product with `w1`, a clamp at zero,
  a matrix product with `w2`, the logistic function), and the result is `X` times its (image, channel)
  gate at every spatial position.

  The kernel takes the spatial sum tile by tile — eight tiles of 16 rows per image — and multiplies the
  total by 2⁻¹⁴; the reference sums all 128×128 positions at once and divides by 16384. On the extended
  reals these agree: a sum may be regrouped freely, and dividing by 16384 is multiplying by 2⁻¹⁴.
-/
import Idealize.ShloMosaic.PureOps
import Idealize.ShloMosaic.PureOps.Ideal.Laws
import Idealize.ShloMosaic.Lib.ValueIdx

noncomputable section

namespace Cert.Spec

open Idealize.ShloMosaic Idealize.ShloMosaic.ValueIdx

abbrev SX : Shape := ⟨4, ![32, 256, 128, 128]⟩
abbrev SP : Shape := ⟨2, ![32, 256]⟩
abbrev STile : Shape := ⟨4, ![8, 256, 16, 128]⟩
abbrev SAcc : Shape := ⟨2, ![8, 256]⟩

/-- A position of the feature map from four naturals, each taken modulo its extent (so that index arithmetic is
    plain arithmetic on naturals). -/
def at4 (b ch h w : ℕ) : SX.Idx :=
  ix4 (⟨b % 32, Nat.mod_lt _ (by decide)⟩ : Fin 32) (⟨ch % 256, Nat.mod_lt _ (by decide)⟩ : Fin 256)
    (⟨h % 128, Nat.mod_lt _ (by decide)⟩ : Fin 128) (⟨w % 128, Nat.mod_lt _ (by decide)⟩ : Fin 128)

/-- An (image, channel) pair from two naturals, each modulo its extent. -/
def at2 (b ch : ℕ) : SP.Idx :=
  ix2 (⟨b % 32, Nat.mod_lt _ (by decide)⟩ : Fin 32) (⟨ch % 256, Nat.mod_lt _ (by decide)⟩ : Fin 256)

/-- The sum of image `b`, channel `ch` over row-tile `k`: rows `16k … 16k + 15`, all 128 columns. -/
def tileSum (X : SX.Idx → EReal) (b ch k : ℕ) : EReal :=
  ∑ q : Fin 16 × Fin 128, X (at4 b ch (16 * k + q.1.val) q.2.val)

/-- The squeeze as the kernel takes it: the eight tile sums added up, times 2⁻¹⁴. -/
def pooled (X : SX.Idx → EReal) : SP.Idx → EReal := fun j =>
  (∑ k ∈ Finset.range 8, tileSum X (j 0).val (j 1).val k) * Ideal.ofBits .f32 0x38800000#32

/-- The final product: every position times its (image, channel) gate. -/
def scaled (X : SX.Idx → EReal) (G : SP.Idx → EReal) : SX.Idx → EReal := fun i =>
  X i * G (at2 (i 0).val (i 1).val)

/-- The indices of a rank-4 shape whose first two coordinates are those of `j` are the image of the last two
    coordinates' product: summing over the fiber of "forget axes 2 and 3" is summing over those two coordinates. -/
theorem sum_fiber_last_two {α : Type} [AddCommMonoid α] {a b c d : ℕ}
    (drop : (⟨4, ![a, b, c, d]⟩ : Shape).Idx → (⟨2, ![a, b]⟩ : Shape).Idx)
    (h0 : ∀ i, (drop i 0).val = (i 0).val) (h1 : ∀ i, (drop i 1).val = (i 1).val)
    (x : (⟨4, ![a, b, c, d]⟩ : Shape).Idx → α) (j : (⟨2, ![a, b]⟩ : Shape).Idx) :
    ∑ i ∈ Finset.univ.filter (fun i => drop i = j), x i = ∑ q : Fin c × Fin d, x (ix4 (j 0) (j 1) q.1 q.2) := by
  have back : ∀ i, drop i = j → ix4 (j 0) (j 1) (i 2) (i 3) = i := by
    intro i hi
    subst hi
    funext e
    match e with
    | ⟨0, _⟩ => exact Fin.ext (h0 i)
    | ⟨1, _⟩ => exact Fin.ext (h1 i)
    | ⟨2, _⟩ => rfl
    | ⟨3, _⟩ => rfl
  refine Finset.sum_nbij' (fun i => ((i 2, i 3) : Fin c × Fin d)) (fun q => ix4 (j 0) (j 1) q.1 q.2) ?_ ?_ ?_ ?_ ?_
  · intro i _; exact Finset.mem_univ _
  · intro q _
    refine Finset.mem_filter.2 ⟨Finset.mem_univ _, ?_⟩
    funext e
    match e with
    | ⟨0, _⟩ => exact Fin.ext (h0 _)
    | ⟨1, _⟩ => exact Fin.ext (h1 _)
  · intro i hi; exact back i (Finset.mem_filter.1 hi).2
  · intro q _; rfl
  · intro i hi; exact (congrArg x (back i (Finset.mem_filter.1 hi).2)).symm

/-- A sum over `m · n` consecutive naturals, cut into `m` runs of `n`: every `h < m · n` is `n · k + p` for exactly one
    `k < m` and `p < n`. -/
theorem sum_fin_mul {α : Type} [AddCommMonoid α] (m n : ℕ) (G : ℕ → α) :
    ∑ h : Fin (m * n), G h.val = ∑ k ∈ Finset.range m, ∑ p : Fin n, G (n * k + p.val) := by
  rw [← Equiv.sum_comp finProdFinEquiv (fun h : Fin (m * n) => G h.val), Fintype.sum_prod_type,
    ← Fin.sum_univ_eq_sum_range (fun k => ∑ p : Fin n, G (n * k + p.val)) m]
  refine Finset.sum_congr rfl fun k _ => Finset.sum_congr rfl fun p _ => ?_
  rw [finProdFinEquiv_apply_val, add_comm]

/-- The word `0x46800000`: sign clear, exponent field 141, fraction zero, so 2¹⁴¹⁻¹²⁷ = 2¹⁴ = 16384. -/
theorem ofBits_16384 : Ideal.ofBits .f32 0x46800000#32 = ((16384 : ℝ) : EReal) := by
  simp [Ideal.ofBits, Ideal.ieee, -EReal.coe_mul]; norm_num

/-- The word `0x38800000`: sign clear, exponent field 113, fraction zero, so 2¹¹³⁻¹²⁷ = 2⁻¹⁴ = 1/16384. -/
theorem ofBits_inv_16384 : Ideal.ofBits .f32 0x38800000#32 = ((1 / 16384 : ℝ) : EReal) := by
  simp [Ideal.ofBits, Ideal.ieee, -EReal.coe_mul]; norm_num

/-- A position given by its coordinates is the position `at4` builds from their values: each value is already below
    its extent, so taking it modulo the extent changes nothing. -/
theorem ix4_eq_at4 (j : SP.Idx) (h w : Fin 128) : (ix4 (j 0) (j 1) h w : SX.Idx) = at4 (j 0).val (j 1).val h.val w.val := by
  funext e
  match e with
  | ⟨0, _⟩ => exact Fin.ext (Nat.mod_eq_of_lt (idx2_lt0 j)).symm
  | ⟨1, _⟩ => exact Fin.ext (Nat.mod_eq_of_lt (idx2_lt1 j)).symm
  | ⟨2, _⟩ => exact Fin.ext (Nat.mod_eq_of_lt h.isLt).symm
  | ⟨3, _⟩ => exact Fin.ext (Nat.mod_eq_of_lt w.isLt).symm

/-- The squeeze as the reference takes it — all positions summed onto the initial value zero, divided by 16384 — is
    the kernel's. -/
theorem mean_eq_pooled (X : SX.Idx → EReal) (hR : SX.ReducesTo [2, 3] SP) (j : SP.Idx) :
    Ideal.div (Ideal.hostReduceAdd hR X (Ideal.ofBits .f32 0x00000000#32) j) (Ideal.ofBits .f32 0x46800000#32) = pooled X j := by
  unfold Ideal.hostReduceAdd pooled
  rw [Ideal.ofBits_zero_f32, zero_add, ofBits_16384, ofBits_inv_16384, Ideal.div_coe (by norm_num)]
  congr 1
  -- the fiber of (image, channel) is the 128 × 128 spatial positions
  refine (sum_fiber_last_two hR.drop (fun i => hR.drop_apply_val_of_eq i 0 0) (fun i => hR.drop_apply_val_of_eq i 1 1)
    X j).trans ?_
  rw [Fintype.sum_prod_type]
  simp only [ix4_eq_at4]
  -- the 128 rows are 8 runs of 16
  refine (sum_fin_mul 8 16 (fun n => ∑ w : Fin 128, X (at4 (j 0).val (j 1).val n w.val))).trans ?_
  refine Finset.sum_congr rfl fun k _ => ?_
  unfold tileSum
  rw [Fintype.sum_prod_type]

/-- The tile's sums as the kernel's lane reduction takes them: for a tile `v` of shape 8×256×16×128, the reduction over
    its last two axes at (r, ch) is the sum over the 16×128 positions. -/
theorem reduce_tile (v : STile.Idx → EReal) (hR : STile.Reduces [2, 3] SAcc) (j : SAcc.Idx) :
    Ideal.reduceAdd hR v j = ∑ q : Fin 16 × Fin 128, v (ix4 (j 0) (j 1) q.1 q.2) := by
  unfold Ideal.reduceAdd
  exact sum_fiber_last_two hR.drop (fun i => hR.drop_apply_val_of_eq i 0 0) (fun i => hR.drop_apply_val_of_eq i 1 1) v j

end Cert.Spec

end
-- ==== Proof.PoolValue.lean ====
/-
  The first launch's result as a value over the extended reals.

  Each of the three situations of a grid point leaves pieces in the running total (and, at a last tile,
  in the output block); read back, a first tile leaves the cleared total plus the tile's sums, a middle or
  last tile leaves the previous total plus the tile's sums, and a last tile stores that total times 2⁻¹⁴.
  The block of the feature map a point sees is rows 16k … 16k + 15 of images 8b … 8b + 7, where the point is
  tile k of image block b. So, by induction along the grid, the running total after tile k of block b holds, at
  (r, ch), the sum of the tile sums 0 … k of image 8b + r and channel ch; at k = 7 that is the whole spatial sum,
  and what is written back is the pooled value. The eight-row output blocks at the last tiles cover the result
  array, which therefore ends holding the pooled feature map.
-/
import proofs.«104173_j50156628082926_1_alg».proof.Proof.PoolFrame
import proofs.«104173_j50156628082926_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

/-! ## What each situation's stored pieces read back as -/

section Pieces
variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A first tile clears the total, reads the cleared total back, and adds the tile's sums to it. -/
theorem totalFirst_eq (c : Dev nD) (i : grid0.Coords) (arg2 : Memref sig .tc .vmem S8x256x16x128 .f32) (harg2 : arg2.IsWhole) (arg3 : Memref sig .tc .vmem S8x256 .f32) (harg3 : arg3.IsWhole) (arg4 : Memref sig .tc .vmem S8x256 .f32) (harg4 : arg4.IsWhole) (hc0 : isFirst i) (hc1 : ¬isLast i)
    (x : Vec F S8x256x16x128 .f32) :
    totalFirst c i arg2 harg2 arg3 harg3 arg4 harg4 hc0 hc1 x = k0_pay2 (k0_pay1 (F := F)) x := by
  unfold totalFirst
  rw [View.read_writes_eq_canon _ _ _ (total_cover_first c i arg2 harg2 arg3 harg3 arg4 harg4 hc0 hc1 x)]
  unfold runFirst
  dsimp only
  sl_unfold_words
  rw [View.canon_cons_unit_zero (S := S8x256) hz2, View.readCov_unit_zero (S := S8x256) _ hz2]
  simp only [View.readAt_eq_ld, harg2.read_unread, View.ld_unit_zero (S := S8x256x16x128) hz4]

/-- A middle tile adds the tile's sums to the total the tile before left. -/
theorem totalMiddle_eq (c : Dev nD) (i : grid0.Coords) (arg2 : Memref sig .tc .vmem S8x256x16x128 .f32) (harg2 : arg2.IsWhole) (arg3 : Memref sig .tc .vmem S8x256 .f32) (harg3 : arg3.IsWhole) (arg4 : Memref sig .tc .vmem S8x256 .f32) (harg4 : arg4.IsWhole) (hc0 : ¬isFirst i) (hc1 : ¬isLast i)
    (x : Vec F S8x256x16x128 .f32) (s : Vec F S8x256 .f32) :
    totalMiddle c i arg2 harg2 arg3 harg3 arg4 harg4 hc0 hc1 x s = k0_pay2 s x := by
  unfold totalMiddle
  rw [View.read_writes_eq_canon _ _ _ (total_cover_middle c i arg2 harg2 arg3 harg3 arg4 harg4 hc0 hc1 x s)]
  unfold runMiddle
  dsimp only
  try sl_unfold_words
  rw [View.canon_unit_zero hz2]
  simp only [View.readAt_eq_ld, harg2.read_unread, harg4.read_unread, View.ld_unit_zero (S := S8x256) hz2, View.ld_unit_zero (S := S8x256x16x128) hz4]

/-- So does a last tile, -/
theorem totalLast_eq (c : Dev nD) (i : grid0.Coords) (arg2 : Memref sig .tc .vmem S8x256x16x128 .f32) (harg2 : arg2.IsWhole) (arg3 : Memref sig .tc .vmem S8x256 .f32) (harg3 : arg3.IsWhole) (arg4 : Memref sig .tc .vmem S8x256 .f32) (harg4 : arg4.IsWhole) (hc0 : ¬isFirst i) (hc1 : isLast i)
    (x : Vec F S8x256x16x128 .f32) (s : Vec F S8x256 .f32) :
    totalLast c i arg2 harg2 arg3 harg3 arg4 harg4 hc0 hc1 x s = k0_pay2 s x := by
  unfold totalLast
  rw [View.read_writes_eq_canon _ _ _ (total_cover_last c i arg2 harg2 arg3 harg3 arg4 harg4 hc0 hc1 x s)]
  unfold runLast
  dsimp only
  sl_unfold_words
  rw [View.canon_unit_zero hz2]
  simp only [View.readAt_eq_ld, harg2.read_unread, harg4.read_unread, View.ld_unit_zero (S := S8x256) hz2, View.ld_unit_zero (S := S8x256x16x128) hz4]

/-- which then stores that new total, scaled, into the output block. -/
theorem outLast_eq (c : Dev nD) (i : grid0.Coords) (arg2 : Memref sig .tc .vmem S8x256x16x128 .f32) (harg2 : arg2.IsWhole) (arg3 : Memref sig .tc .vmem S8x256 .f32) (harg3 : arg3.IsWhole) (arg4 : Memref sig .tc .vmem S8x256 .f32) (harg4 : arg4.IsWhole) (hc0 : ¬isFirst i) (hc1 : isLast i)
    (x : Vec F S8x256x16x128 .f32) (s : Vec F S8x256 .f32) :
    outLast c i arg2 harg2 arg3 harg3 arg4 harg4 hc0 hc1 x s = k0_pay3 (k0_pay2 s x) := by
  unfold outLast
  rw [View.read_writes_eq_canon _ _ _ (out_cover_last c i arg2 harg2 arg3 harg3 arg4 harg4 hc0 hc1 x s)]
  unfold runLast
  dsimp only
  sl_unfold_words
  rw [View.canon_unit_zero hz2, View.readCov_unit_zero (S := S8x256) _ hz2]
  simp only [View.readAt_eq_ld, harg2.read_unread, harg4.read_unread, View.ld_unit_zero (S := S8x256) hz2, View.ld_unit_zero (S := S8x256x16x128) hz4]

end Pieces

/-! ## The stored values at an index, over the extended reals -/

/-- The cleared total is zero everywhere. -/
theorem cleared_apply (r : Fin 8) (ch : Fin 256) : (k0_pay1 (F := Ideal)) (ix2 r ch) = 0 := by
  unfold k0_pay1
  refine (congrFun (shapeCast_self _ _) (ix2 r ch)).trans ?_
  exact Ideal.ofBits_zero_f32

/-- Adding a tile: at (r, ch) the total grows by the sum of the tile's 16×128 entries of that row and channel. -/
theorem added_apply (s : Vec Ideal S8x256 .f32) (x : Vec Ideal S8x256x16x128 .f32) (r : Fin 8) (ch : Fin 256) :
    k0_pay2 (F := Ideal) s x (ix2 r ch) = s (ix2 r ch) + ∑ q : Fin 16 × Fin 128, x (ix4 r ch q.1 q.2) := by
  unfold k0_pay2
  refine (congrFun (shapeCast_self _ _) (ix2 r ch)).trans ?_
  refine (addf_apply _ _ _).trans ?_
  exact congrArg (s (ix2 r ch) + ·) (Cert.Spec.reduce_tile x reduces_S8x256x16x128_S8x256 (ix2 r ch))

/-- The stored mean: the total times 2⁻¹⁴. -/
theorem scaled_apply (v : Vec Ideal S8x256 .f32) (r : Fin 8) (ch : Fin 256) :
    k0_pay3 (F := Ideal) v (ix2 r ch) = v (ix2 r ch) * Ideal.ofBits .f32 0x38800000#32 := by
  unfold k0_pay3
  exact mulf_apply _ _ _

/-! ## The block a point sees, where the feature map says -/

section Value
variable (V : (c : Dev nD) → (b : Ref sig .tc) → Buf (Elt Ideal) ((c : Thread nD τ).loc b))

/-- The feature map on entry, at its literal shape. -/
abbrev xarr (c : Dev nD) : Cert.Spec.SX.Idx → EReal := V c main_arg0
/-- The feature block point `t` sees, at its literal shape. -/
abbrev xblk (c : Dev nD) (t : Fin cfg0.N) : Vec Ideal S8x256x16x128 .f32 := blockAt V c 0 t

/-- Point `t` is tile `t % 8` of image block `t / 8`: the feature window's block index there. -/
theorem idx_x : ∀ t : Fin cfg0.N, win0_0.index t 0 = t.val / 8 ∧ win0_0.index t 1 = 0 ∧ win0_0.index t 2 = t.val % 8 ∧ win0_0.index t 3 = 0 :=
  (by decide +kernel : ∀ t : Fin grid0.N, win0_0.index t (0 : Fin 4) = t.val / 8 ∧ win0_0.index t (1 : Fin 4) = 0 ∧ win0_0.index t (2 : Fin 4) = t.val % 8 ∧ win0_0.index t (3 : Fin 4) = 0)

/-- The output window's block index at point `t`: image block `t / 8`. -/
theorem idx_out : ∀ t : Fin cfg0.N, win0_1.index t 0 = t.val / 8 ∧ win0_1.index t 1 = 0 :=
  (by decide +kernel : ∀ t : Fin grid0.N, win0_1.index t (0 : Fin 2) = t.val / 8 ∧ win0_1.index t (1 : Fin 2) = 0)

/-- Entry (r, ch, p, q) of the block at point `t` is the feature map at image 8·(t/8) + r, channel ch,
    row 16·(t%8) + p, column q. -/
theorem xblk_apply (c : Dev nD) (t : Fin cfg0.N) (r : Fin 8) (ch : Fin 256) (p : Fin 16) (q : Fin 128) :
    xblk V c t (ix4 r ch p q) = xarr V c (Cert.Spec.at4 (8 * (t.val / 8) + r.val) ch.val (16 * (t.val % 8) + p.val) q.val) := by
  have hN : t.val < 32 := lt_of_lt_of_eq t.isLt N_0
  have hr := r.isLt
  have hch := ch.isLt
  have hp := p.isLt
  have hq := q.isLt
  obtain ⟨h0, h1, h2, h3⟩ := idx_x t
  show blockAt V c 0 t (ix4 r ch p q) = _
  unfold blockAt
  rw [View.read_apply]
  show V c main_arg0 _ = V c main_arg0 _
  congr 1
  funext a
  apply Fin.ext
  match a with
  | ⟨0, _⟩ => show win0_0.index t 0 * 8 + 1 * r.val = (8 * (t.val / 8) + r.val) % 32; rw [h0]; omega
  | ⟨1, _⟩ => show win0_0.index t 1 * 256 + 1 * ch.val = ch.val % 256; rw [h1]; omega
  | ⟨2, _⟩ => show win0_0.index t 2 * 16 + 1 * p.val = (16 * (t.val % 8) + p.val) % 128; rw [h2]; omega
  | ⟨3, _⟩ => show win0_0.index t 3 * 128 + 1 * q.val = q.val % 128; rw [h3]; omega

/-- So the block's sum at (r, ch) is that image's and channel's sum over tile `t % 8`. -/
theorem tile_apply (c : Dev nD) (t : Fin cfg0.N) (r : Fin 8) (ch : Fin 256) :
    ∑ q : Fin 16 × Fin 128, xblk V c t (ix4 r ch q.1 q.2)
      = Cert.Spec.tileSum (xarr V c) (8 * (t.val / 8) + r.val) ch.val (t.val % 8) := by
  unfold Cert.Spec.tileSum
  exact Finset.sum_congr rfl fun q _ => xblk_apply V c t r ch q.1 q.2

/-! ## The running total along the grid -/

/-- After a first tile the total at (r, ch) is that tile's sum. -/
theorem total_first (c : Dev nD) (n : ℕ) (hn : n < cfg0.N) (h0 : n % 8 = 0) (r : Fin 8) (ch : Fin 256) :
    (contentsAfter V c n hn).2 (ix2 r ch) = Cert.Spec.tileSum (xarr V c) (8 * (n / 8) + r.val) ch.val (n % 8) := by
  rw [show contentsAfter V c n hn = _ from contentsAfter_first V c ⟨n, hn⟩ h0]
  dsimp only
  refine (congrFun (totalFirst_eq (F := Ideal) c (grid0.coords ⟨n, hn⟩) (xBuf ⟨n, hn⟩) (xBuf_whole ⟨n, hn⟩) (outBuf ⟨n, hn⟩) (outBuf_whole ⟨n, hn⟩) totalBuf (Memref.isWhole_whole _) ((isFirst_iff ⟨n, hn⟩).mpr h0) (fun h => not_last_of_first h0 ((isLast_iff ⟨n, hn⟩).mp h)) (xblk V c ⟨n, hn⟩)) (ix2 r ch)).trans ?_
  refine (added_apply (k0_pay1 (F := Ideal)) (xblk V c ⟨n, hn⟩) r ch).trans ?_
  rw [cleared_apply, zero_add]
  exact tile_apply V c ⟨n, hn⟩ r ch

/-- After any other tile it is what the tile before left plus that tile's sum. -/
theorem total_next (c : Dev nD) (n : ℕ) (hn : n + 1 < cfg0.N) (h0 : ¬(n + 1) % 8 = 0) (r : Fin 8) (ch : Fin 256) :
    (contentsAfter V c (n + 1) hn).2 (ix2 r ch)
      = (contentsAfter V c n (Nat.lt_of_succ_lt hn)).2 (ix2 r ch)
        + Cert.Spec.tileSum (xarr V c) (8 * ((n + 1) / 8) + r.val) ch.val ((n + 1) % 8) := by
  by_cases h1 : (n + 1) % 8 = 7
  · rw [show contentsAfter V c (n + 1) hn = _ from contentsAfter_last V c ⟨n + 1, hn⟩ h0 h1]
    dsimp only
    refine (congrFun (totalLast_eq (F := Ideal) c (grid0.coords ⟨n + 1, hn⟩) (xBuf ⟨n + 1, hn⟩) (xBuf_whole ⟨n + 1, hn⟩) (outBuf ⟨n + 1, hn⟩) (outBuf_whole ⟨n + 1, hn⟩) totalBuf (Memref.isWhole_whole _) (fun h => h0 ((isFirst_iff ⟨n + 1, hn⟩).mp h)) ((isLast_iff ⟨n + 1, hn⟩).mpr h1) (xblk V c ⟨n + 1, hn⟩) (contentsAfter V c n (Nat.lt_of_succ_lt hn)).2) (ix2 r ch)).trans ?_
    refine (added_apply (contentsAfter V c n (Nat.lt_of_succ_lt hn)).2 (xblk V c ⟨n + 1, hn⟩) r ch).trans ?_
    exact congrArg ((contentsAfter V c n (Nat.lt_of_succ_lt hn)).2 (ix2 r ch) + ·) (tile_apply V c ⟨n + 1, hn⟩ r ch)
  · rw [show contentsAfter V c (n + 1) hn = _ from contentsAfter_middle V c ⟨n + 1, hn⟩ h0 h1]
    dsimp only
    refine (congrFun (totalMiddle_eq (F := Ideal) c (grid0.coords ⟨n + 1, hn⟩) (xBuf ⟨n + 1, hn⟩) (xBuf_whole ⟨n + 1, hn⟩) (outBuf ⟨n + 1, hn⟩) (outBuf_whole ⟨n + 1, hn⟩) totalBuf (Memref.isWhole_whole _) (fun h => h0 ((isFirst_iff ⟨n + 1, hn⟩).mp h)) (fun h => h1 ((isLast_iff ⟨n + 1, hn⟩).mp h)) (xblk V c ⟨n + 1, hn⟩) (contentsAfter V c n (Nat.lt_of_succ_lt hn)).2) (ix2 r ch)).trans ?_
    refine (added_apply (contentsAfter V c n (Nat.lt_of_succ_lt hn)).2 (xblk V c ⟨n + 1, hn⟩) r ch).trans ?_
    exact congrArg ((contentsAfter V c n (Nat.lt_of_succ_lt hn)).2 (ix2 r ch) + ·) (tile_apply V c ⟨n + 1, hn⟩ r ch)

/-- So after tile k of image block b the total at (r, ch) is the sum of the tile sums 0 … k of image 8b + r, channel ch. -/
theorem total_apply (c : Dev nD) : ∀ (n : ℕ) (hn : n < cfg0.N) (r : Fin 8) (ch : Fin 256),
    (contentsAfter V c n hn).2 (ix2 r ch)
      = ∑ k ∈ Finset.range (n % 8 + 1), Cert.Spec.tileSum (xarr V c) (8 * (n / 8) + r.val) ch.val k := by
  intro n
  induction n with
  | zero =>
    intro hn r ch
    refine (total_first V c 0 hn (Nat.zero_mod 8) r ch).trans ?_
    rw [Finset.sum_range_succ, Nat.zero_mod, Finset.sum_range_zero, zero_add]
  | succ n ih =>
    intro hn r ch
    by_cases h0 : (n + 1) % 8 = 0
    · refine (total_first V c (n + 1) hn h0 r ch).trans ?_
      rw [h0, Finset.sum_range_succ, Finset.sum_range_zero, zero_add]
    · refine (total_next V c n hn h0 r ch).trans ?_
      have e1 : (n + 1) / 8 = n / 8 := by omega
      have e2 : (n + 1) % 8 = n % 8 + 1 := by omega
      rw [ih (Nat.lt_of_succ_lt hn) r ch, e1, e2, Finset.sum_range_succ _ (n % 8 + 1)]

/-! ## What is written back, and the result array -/

/-- At a last tile the output block at (r, ch) holds the eight tile sums of image 8·(t/8) + r, channel ch, added up, times 2⁻¹⁴. -/
theorem out_apply (c : Dev nD) (t : Fin cfg0.N) (h7 : t.val % 8 = 7) (r : Fin 8) (ch : Fin 256) :
    (contentsAfter V c t.val t.isLt).1 (ix2 r ch)
      = (∑ k ∈ Finset.range 8, Cert.Spec.tileSum (xarr V c) (8 * (t.val / 8) + r.val) ch.val k) * Ideal.ofBits .f32 0x38800000#32 := by
  have h0 : ¬t.val % 8 = 0 := by omega
  have e2 := total_apply V c t.val t.isLt r ch
  rw [contentsAfter_last V c t h0 h7] at e2 ⊢
  dsimp only at e2 ⊢
  refine (congrFun (outLast_eq (F := Ideal) c (grid0.coords t) (xBuf t) (xBuf_whole t) (outBuf t) (outBuf_whole t) totalBuf (Memref.isWhole_whole _) (fun h => h0 ((isFirst_iff t).mp h)) ((isLast_iff t).mpr h7) (xblk V c t) (contentsAfter V c (t.val - 1) (Nat.lt_of_le_of_lt (Nat.sub_le _ _) t.isLt)).2) (ix2 r ch)).trans ?_
  refine (scaled_apply _ r ch).trans ?_
  refine congrArg (· * Ideal.ofBits .f32 0x38800000#32) ?_
  refine (congrFun (totalLast_eq (F := Ideal) c (grid0.coords t) (xBuf t) (xBuf_whole t) (outBuf t) (outBuf_whole t) totalBuf (Memref.isWhole_whole _) (fun h => h0 ((isFirst_iff t).mp h)) ((isLast_iff t).mpr h7) (xblk V c t) (contentsAfter V c (t.val - 1) (Nat.lt_of_le_of_lt (Nat.sub_le _ _) t.isLt)).2) (ix2 r ch)).symm.trans ?_
  refine e2.trans ?_
  rw [h7]

/-- The pooled feature map, as contents of the result array. -/
abbrev pooledArr (c : Dev nD) : Buf (Elt Ideal) ((cfg0.win 1).arr.view.loc (c.tc : Thread nD τ)) :=
  (Cert.Spec.pooled (xarr V c) : Cert.Spec.SP.Idx → EReal)

/-- What a last tile writes back is its eight rows of the pooled feature map. -/
theorem flushed_eq (c : Dev nD) (t : Fin cfg0.N) (hf : (cfg0.win 1).flush t = true) :
    (dat V c).flushed 1 t = ((cfg0.win 1).blk t).view.read (Elt Ideal) (pooledArr V c) := by
  have h7 : t.val % 8 = 7 := (flush0_1 t).mp hf
  have hN : t.val < 32 := lt_of_lt_of_eq t.isLt N_0
  obtain ⟨i0, i1⟩ := idx_out t
  show (cfg0.win 1).cut (grid0.coords t) ((dat V c).after 1 t) = _
  rw [after_out]
  show ((contentsAfter V c t.val t.isLt).1 : Vec Ideal S8x256 .f32) = (((cfg0.win 1).blk t).view.read (Elt Ideal) (pooledArr V c) : Vec Ideal S8x256 .f32)
  funext y
  obtain ⟨r, ch, rfl⟩ : ∃ (r : Fin 8) (ch : Fin 256), y = ix2 r ch := ⟨y 0, y 1, eq_ix2 y⟩
  have hr := r.isLt
  have hch := ch.isLt
  rw [out_apply V c t h7 r ch, View.read_apply]
  show _ = Cert.Spec.pooled (xarr V c) (((cfg0.win 1).blk t).view.emb (ix2 r ch))
  unfold Cert.Spec.pooled
  have e0 : ((((cfg0.win 1).blk t).view.emb (ix2 r ch)) 0 : ℕ) = 8 * (t.val / 8) + r.val := by
    show win0_1.index t 0 * 8 + 1 * r.val = _; rw [i0]; omega
  have e1 : ((((cfg0.win 1).blk t).view.emb (ix2 r ch)) 1 : ℕ) = ch.val := by
    show win0_1.index t 1 * 256 + 1 * ch.val = _; rw [i1]; omega
  rw [e0, e1]

/-- The eight-row blocks written back at the last tiles cover the result array, so it ends holding the pooled feature map. -/
theorem final (c : Dev nD) :
    (dat (F := Ideal) V c).arrAt 1 cfg0.N = (Cert.Spec.pooled (V c main_arg0 : Cert.Spec.SX.Idx → EReal) : Cert.Spec.SP.Idx → EReal) :=
  (dat V c).arrAt_eq_of_cover 1 (pooledArr V c) (flushed_eq V c) fun i => by
    have h0 : (i 0 : ℕ) < 32 := (i 0).isLt
    have h1 : (i 1 : ℕ) < 256 := (i 1).isLt
    have hN : cfg0.N = 32 := N_0
    have hlt : 8 * ((i 0 : ℕ) / 8) + 7 < cfg0.N := by rw [hN]; omega
    obtain ⟨e0, e1⟩ := idx_out ⟨8 * ((i 0 : ℕ) / 8) + 7, hlt⟩
    refine ⟨⟨8 * ((i 0 : ℕ) / 8) + 7, hlt⟩, (flush0_1 ⟨8 * ((i 0 : ℕ) / 8) + 7, hlt⟩).mpr (by show (8 * ((i 0 : ℕ) / 8) + 7) % 8 = 7; omega), ?_⟩
    show i ∈ ((View.whole main_v0).slice (win0_1.rect ⟨8 * ((i 0 : ℕ) / 8) + 7, hlt⟩)).set
    rw [View.set_slice_whole, Rect.mem_set_unit]
    intro a
    match a with
    | ⟨0, _⟩ =>
      show win0_1.index ⟨8 * ((i 0 : ℕ) / 8) + 7, hlt⟩ 0 * 8 ≤ (i 0 : ℕ) ∧ (i 0 : ℕ) < win0_1.index ⟨8 * ((i 0 : ℕ) / 8) + 7, hlt⟩ 0 * 8 + 8
      rw [e0]; show (8 * ((i 0 : ℕ) / 8) + 7) / 8 * 8 ≤ (i 0 : ℕ) ∧ (i 0 : ℕ) < (8 * ((i 0 : ℕ) / 8) + 7) / 8 * 8 + 8; omega
    | ⟨1, _⟩ =>
      show win0_1.index ⟨8 * ((i 0 : ℕ) / 8) + 7, hlt⟩ 1 * 256 ≤ (i 1 : ℕ) ∧ (i 1 : ℕ) < win0_1.index ⟨8 * ((i 0 : ℕ) / 8) + 7, hlt⟩ 1 * 256 + 256
      rw [e1]; omega

end Value

end Cert.KernelIdeal.Pool

end
-- ==== Proof.ScaleValue.lean ====
/-
  The second launch, read as values. At every grid point the body leaves in the output block the product of the
  feature block and the spread gates; here that product is read at a position (r, ch, p, q) of the block, each block is
  read where the array holds it — point `t` sees images `8 (t / 16) … 8 (t / 16) + 7`, all 256 channels, rows
  `8 (t % 16) … 8 (t % 16) + 7`, all 128 columns —, so what a point writes back is its block of the feature map times
  its (image, channel) gates; the 64 blocks tile the output, and after the launch the output array is that product at
  every position.
-/
import proofs.«104173_j50156628082926_1_alg».proof.Proof.ScaleFrame
import proofs.«104173_j50156628082926_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Scale

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

theorem zeros4 : (![0, 0, 0, 0] : Fin 4 → Nat) = fun _ => 0 := funext fun a => by fin_cases a <;> rfl
theorem zeros2 : (![0, 0] : Fin 2 → Nat) = fun _ => 0 := funext fun a => by fin_cases a <;> rfl

/-- The gates viewed with two unit axes appended read, at (r, ch, 0, 0), the gate at (r, ch). -/
theorem keepdims_apply {α : Type} (s : S8x256.Idx → α) (h : S8x256.ShapeCasts S8x256x1x1) (r : Fin 8) (ch : Fin 256) (u v : Fin 1) :
    shapeCast S8x256x1x1 s h (ix4 r ch u v) = s (ix2 r ch) :=
  shapeCast_apply s h _ _ (by
    have hu : u.val = 0 := by omega
    have hv : v.val = 0 := by omega
    rw [Shape.rowMajor_val_four, Shape.rowMajor_val_two]
    show r.val * 256 + ch.val = ((r.val * 256 + ch.val) * 1 + u.val) * 1 + v.val
    rw [hu, hv]; omega)

/-- The gates with two unit axes, spread over the 8×128 positions, read at (r, ch, p, q) the entry at (r, ch, 0, 0). -/
theorem spread_apply {α : Type} (g : S8x256x1x1.Idx → α) (h : S8x256x1x1.Broadcasts S8x256x8x128) (r : Fin 8) (ch : Fin 256) (p : Fin 8) (q : Fin 128) :
    broadcastTo S8x256x8x128 g h (ix4 r ch p q) = g (ix4 r ch (0 : Fin 1) (0 : Fin 1)) := by
  refine broadcastTo_apply g h (ix4 r ch p q) (ix4 r ch (0 : Fin 1) (0 : Fin 1)) fun ax => ?_
  match ax with
  | ⟨0, _⟩ => rfl
  | ⟨1, _⟩ => rfl
  | ⟨2, _⟩ => rfl
  | ⟨3, _⟩ => rfl

/-- The product block at a position: the feature entry times the gate of its (row, channel). -/
theorem product_apply (x : Vec Ideal S8x256x8x128 .f32) (s : Vec Ideal S8x256 .f32) (r : Fin 8) (ch : Fin 256) (p : Fin 8) (q : Fin 128) :
    product x s (ix4 r ch p q) = x (ix4 r ch p q) * s (ix2 r ch) := by
  unfold product
  rw [View.canon_unit_zero zeros4]
  unfold k1_pay1
  refine (mulf_apply _ _ _).trans ?_
  refine congrArg₂ (· * ·) ?_ ?_
  · exact congrFun (View.ld_unit_zero (S := S8x256x8x128) zeros4 _ x) _
  · refine (spread_apply _ _ r ch p q).trans ?_
    refine (keepdims_apply _ _ r ch 0 0).trans ?_
    refine (congrFun (shapeCast_self _ _) _).trans ?_
    exact congrFun (View.ld_unit_zero (S := S8x256) zeros2 _ s) _

variable (V : (c : Dev nD) → (b : Ref sig .tc) → Buf (Elt Ideal) ((c : Thread nD τ).loc b))

/-- The index maps over the grid: point `t` addresses image-block `t / 16` and row-tile `t % 16` of the feature map
    and of the output, and image-block `t / 16` of the gates. -/
theorem index_facts : ∀ t : Fin cfg1.N,
    win1_0.index t (0 : Fin 4) = t.val / 16 ∧ win1_0.index t (1 : Fin 4) = 0 ∧ win1_0.index t (2 : Fin 4) = t.val % 16 ∧ win1_0.index t (3 : Fin 4) = 0
    ∧ win1_1.index t (0 : Fin 2) = t.val / 16 ∧ win1_1.index t (1 : Fin 2) = 0
    ∧ win1_2.index t (0 : Fin 4) = t.val / 16 ∧ win1_2.index t (1 : Fin 4) = 0 ∧ win1_2.index t (2 : Fin 4) = t.val % 16 ∧ win1_2.index t (3 : Fin 4) = 0 :=
  (by decide +kernel : ∀ t : Fin grid1.N, _)

theorem point_lt (t : Fin cfg1.N) : t.val < 64 := lt_of_lt_of_eq t.isLt N_1

/-- The feature block at point `t`, at (r, ch, p, q), is the feature map at image `8 (t / 16) + r`, channel `ch`,
    row `8 (t % 16) + p`, column `q`. -/
theorem x_block_apply (c : Dev nD) (t : Fin cfg1.N) (r : Fin 8) (ch : Fin 256) (p : Fin 8) (q : Fin 128) :
    (blockAt V c 0 t : Vec Ideal S8x256x8x128 .f32) (ix4 r ch p q)
      = (V c main_arg0 : Cert.Spec.SX.Idx → EReal) (Cert.Spec.at4 (8 * (t.val / 16) + r.val) ch.val (8 * (t.val % 16) + p.val) q.val) := by
  obtain ⟨e0, e1, e2, e3, -⟩ := index_facts t
  have ht := point_lt t
  unfold blockAt
  rw [View.read_apply]
  show V c main_arg0 (((cfg1.win 0).blk t).view.emb (ix4 r ch p q)) = V c main_arg0 _
  refine congrArg (V c main_arg0) ?_
  funext a; apply Fin.ext
  match a with
  | ⟨0, _⟩ => show win1_0.index t (0 : Fin 4) * 8 + 1 * r.val = (8 * (t.val / 16) + r.val) % 32; rw [e0]; omega
  | ⟨1, _⟩ => show win1_0.index t (1 : Fin 4) * 256 + 1 * ch.val = ch.val % 256; rw [e1]; omega
  | ⟨2, _⟩ => show win1_0.index t (2 : Fin 4) * 8 + 1 * p.val = (8 * (t.val % 16) + p.val) % 128; rw [e2]; omega
  | ⟨3, _⟩ => show win1_0.index t (3 : Fin 4) * 128 + 1 * q.val = q.val % 128; rw [e3]; omega

/-- The gate block at point `t`, at (r, ch), is the gate of image `8 (t / 16) + r`, channel `ch`. -/
theorem s_block_apply (c : Dev nD) (t : Fin cfg1.N) (r : Fin 8) (ch : Fin 256) :
    (blockAt V c 1 t : Vec Ideal S8x256 .f32) (ix2 r ch)
      = (V c main_v9 : Cert.Spec.SP.Idx → EReal) (Cert.Spec.at2 (8 * (t.val / 16) + r.val) ch.val) := by
  obtain ⟨-, -, -, -, e0, e1, -⟩ := index_facts t
  have ht := point_lt t
  unfold blockAt
  rw [View.read_apply]
  show V c main_v9 (((cfg1.win 1).blk t).view.emb (ix2 r ch)) = V c main_v9 _
  refine congrArg (V c main_v9) ?_
  funext a; apply Fin.ext
  match a with
  | ⟨0, _⟩ => show win1_1.index t (0 : Fin 2) * 8 + 1 * r.val = (8 * (t.val / 16) + r.val) % 32; rw [e0]; omega
  | ⟨1, _⟩ => show win1_1.index t (1 : Fin 2) * 256 + 1 * ch.val = ch.val % 256; rw [e1]; omega

/-! ## What a point writes back -/

/-- Two functions on the 8×256×8×128 block agree when they agree at every (r, ch, p, q). -/
theorem block_ext {α : Type} {f g : S8x256x8x128.Idx → α} (h : ∀ (r : Fin 8) (ch : Fin 256) (p : Fin 8) (q : Fin 128), f (ix4 r ch p q) = g (ix4 r ch p q)) : f = g :=
  funext fun j => by rw [eq_ix4 j]; exact h _ _ _ _

/-- A gate is looked up by image and channel modulo the extents, so reducing them first changes nothing. -/
theorem at2_mod (b ch : ℕ) : Cert.Spec.at2 (b % 32) (ch % 256) = Cert.Spec.at2 b ch := by
  funext a; apply Fin.ext
  match a with
  | ⟨0, _⟩ => exact Nat.mod_mod _ _
  | ⟨1, _⟩ => exact Nat.mod_mod _ _

/-- The scaled map at a position given by four naturals: the entry there times the gate of its image and channel. -/
theorem scaled_at4 (X : Cert.Spec.SX.Idx → EReal) (G : Cert.Spec.SP.Idx → EReal) (b ch h w : ℕ) :
    Cert.Spec.scaled X G (Cert.Spec.at4 b ch h w) = X (Cert.Spec.at4 b ch h w) * G (Cert.Spec.at2 b ch) := by
  show X (Cert.Spec.at4 b ch h w) * G (Cert.Spec.at2 (b % 32) (ch % 256)) = _
  rw [at2_mod]

/-- The product block at point `t` is the scaled map at the positions the block covers. -/
theorem product_block_apply (c : Dev nD) (t : Fin cfg1.N) (r : Fin 8) (ch : Fin 256) (p : Fin 8) (q : Fin 128) :
    product (blockAt V c 0 t) (blockAt V c 1 t) (ix4 r ch p q)
      = Cert.Spec.scaled (V c main_arg0) (V c main_v9) (Cert.Spec.at4 (8 * (t.val / 16) + r.val) ch.val (8 * (t.val % 16) + p.val) q.val) := by
  rw [scaled_at4]
  refine (product_apply _ _ r ch p q).trans ?_
  rw [x_block_apply V c t r ch p q, s_block_apply V c t r ch]

/-- Any contents of the output array, read through point `t`'s block at (r, ch, p, q), are the contents at image
    `8 (t / 16) + r`, channel `ch`, row `8 (t % 16) + p`, column `q`. -/
theorem out_block_apply (c : Dev nD) (t : Fin cfg1.N) (Y : Cert.Spec.SX.Idx → EReal) (r : Fin 8) (ch : Fin 256) (p : Fin 8) (q : Fin 128) :
    (((cfg1.win 2).blk t).view.read (Elt Ideal) Y : Vec Ideal S8x256x8x128 .f32) (ix4 r ch p q)
      = Y (Cert.Spec.at4 (8 * (t.val / 16) + r.val) ch.val (8 * (t.val % 16) + p.val) q.val) := by
  obtain ⟨-, -, -, -, -, -, e0, e1, e2, e3⟩ := index_facts t
  have ht := point_lt t
  rw [View.read_apply]
  show Y (((cfg1.win 2).blk t).view.emb (ix4 r ch p q)) = Y _
  refine congrArg Y ?_
  funext a; apply Fin.ext
  match a with
  | ⟨0, _⟩ => show win1_2.index t (0 : Fin 4) * 8 + 1 * r.val = (8 * (t.val / 16) + r.val) % 32; rw [e0]; omega
  | ⟨1, _⟩ => show win1_2.index t (1 : Fin 4) * 256 + 1 * ch.val = ch.val % 256; rw [e1]; omega
  | ⟨2, _⟩ => show win1_2.index t (2 : Fin 4) * 8 + 1 * p.val = (8 * (t.val % 16) + p.val) % 128; rw [e2]; omega
  | ⟨3, _⟩ => show win1_2.index t (3 : Fin 4) * 128 + 1 * q.val = q.val % 128; rw [e3]; omega

/-- What point `t` writes back is its block of the scaled map. -/
theorem flushed_eq (c : Dev nD) (t : Fin cfg1.N) :
    (dat V c).flushed 2 t = ((cfg1.win 2).blk t).view.read (Elt Ideal) (Cert.Spec.scaled (V c main_arg0) (V c main_v9)) := by
  show (cfg1.win 2).cut (grid1.coords t) ((dat V c).after 2 t) = _
  rw [after_out]
  refine block_ext fun r ch p q => ?_
  exact (product_block_apply V c t r ch p q).trans (out_block_apply c t _ r ch p q).symm

/-! ## The blocks tile the output -/

/-- A position of the output is in point `t`'s block iff each coordinate is in the block's range on its axis. -/
theorem mem_out_block (t : Fin cfg1.N) (i : S32x256x128x128.Idx) :
    i ∈ ((cfg1.win 2).blk t).view.set ↔ ∀ a : Fin 4, win1_2.index t a * S8x256x8x128.size a ≤ (i a).val ∧ (i a).val < win1_2.index t a * S8x256x8x128.size a + S8x256x8x128.size a := by
  show i ∈ ((View.whole main_v10).slice (win1_2.rect t)).set ↔ _
  rw [View.set_slice_whole, Rect.mem_set_unit]
  exact Iff.rfl

/-- Every position (b, ch, h, w) of the output is in the block of the point `16 (b / 8) + h / 8`, which writes back. -/
theorem covered (i : S32x256x128x128.Idx) : ∃ t : Fin cfg1.N, (cfg1.win 2).flush t = true ∧ i ∈ ((cfg1.win 2).blk t).view.set := by
  have h0 : (i 0).val < 32 := (i 0).isLt
  have h1 : (i 1).val < 256 := (i 1).isLt
  have h2 : (i 2).val < 128 := (i 2).isLt
  have h3 : (i 3).val < 128 := (i 3).isLt
  obtain ⟨t, ht⟩ : ∃ t : Fin cfg1.N, t.val = 16 * ((i 0).val / 8) + (i 2).val / 8 :=
    ⟨⟨16 * ((i 0).val / 8) + (i 2).val / 8, by rw [show cfg1.N = 64 from N_1]; omega⟩, rfl⟩
  obtain ⟨-, -, -, -, -, -, e0, e1, e2, e3⟩ := index_facts t
  refine ⟨t, flush1_2 t, ?_⟩
  rw [mem_out_block]
  intro a
  match a with
  | ⟨0, _⟩ => show win1_2.index t (0 : Fin 4) * 8 ≤ (i 0).val ∧ (i 0).val < win1_2.index t (0 : Fin 4) * 8 + 8; rw [e0]; omega
  | ⟨1, _⟩ => show win1_2.index t (1 : Fin 4) * 256 ≤ (i 1).val ∧ (i 1).val < win1_2.index t (1 : Fin 4) * 256 + 256; rw [e1]; omega
  | ⟨2, _⟩ => show win1_2.index t (2 : Fin 4) * 8 ≤ (i 2).val ∧ (i 2).val < win1_2.index t (2 : Fin 4) * 8 + 8; rw [e2]; omega
  | ⟨3, _⟩ => show win1_2.index t (3 : Fin 4) * 128 ≤ (i 3).val ∧ (i 3).val < win1_2.index t (3 : Fin 4) * 128 + 128; rw [e3]; omega

/-! ## The output array after the launch -/

/-- After the launch the output array is the feature map times its (image, channel) gates, position by position. -/
theorem final (c : Dev nD) :
    (dat (F := Ideal) V c).arrAt 2 cfg1.N = Cert.Spec.scaled (V c main_arg0) (V c main_v9) :=
  (dat V c).arrAt_eq_of_cover 2 (Cert.Spec.scaled (V c main_arg0) (V c main_v9)) (fun t _ => flushed_eq V c t) covered

end Cert.KernelIdeal.Scale

end
-- ==== Proof.RefValue.lean ====
/-
  The reference's result, read index by index at the exact instance.

  Two sub-terms of the reference's result term are identified with the shared definitions: the
  squeeze (all spatial positions summed onto zero, divided by 16384) is the pooled mean, and the
  final multiplication by the twice-broadcast gate is the position-wise product with the gate of
  the position's (image, channel) pair.
-/
import proofs.«104173_j50156628082926_1_alg».proof.Defs
import proofs.«104173_j50156628082926_1_alg».proof.Proof.Gen.ReferenceIdeal.Run
import proofs.«104173_j50156628082926_1_alg».proof.Proof.Gen.ReferenceIdeal.Read
import proofs.«104173_j50156628082926_1_alg».proof.Proof.Spec
import Idealize.ShloMosaic.PureOps.Ideal
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The squeeze of the reference: at every (image, channel) pair the host's quotient of the host's sum over the two
    spatial axes (started at the constant zero) by the broadcast constant 16384 is the pooled mean. Both host
    operations, the constants and the scalar broadcast read through to the extended reals' operations by unfolding. -/
theorem mean_read (X : FVec Ideal S32x256x128x128 .f32) :
    Host.divf (Host.reduceAdd X (constant (F := Ideal) S_ .f32 0x00000000#32) reducesTo_S32x256x128x128_S32x256_d2_3 h_S_)
      (broadcastInDim S32x256 ![] bcast_S_S32x256 (constant (F := Ideal) S_ .f32 0x46800000#32)) = Cert.Spec.pooled X := by
  funext j
  show Ideal.div (Ideal.hostReduceAdd reducesTo_S32x256x128x128_S32x256_d2_3 X (Ideal.ofBits .f32 0x00000000#32) j)
      (Ideal.ofBits .f32 0x46800000#32) = Cert.Spec.pooled X j
  exact Cert.Spec.mean_eq_pooled X reducesTo_S32x256x128x128_S32x256_d2_3 j

/-- A pair of naturals below the two extents names the (image, channel) pair with those coordinates: reducing a
    number below the modulus changes nothing. -/
theorem at2_val (i : S32x256x128x128.Idx) : Cert.Spec.at2 (i 0).val (i 1).val = ix2 (i 0) (i 1) := by
  funext a
  match a with
  | ⟨0, _⟩ => exact Fin.ext (Nat.mod_eq_of_lt (i 0).isLt)
  | ⟨1, _⟩ => exact Fin.ext (Nat.mod_eq_of_lt (i 1).isLt)

/-- The gate spread over the feature map: the broadcast of the 32×256 gate to 32×256×1×1 along axes 0 and 1, then to
    32×256×128×128 along all four axes, read at a position is the gate at the position's first two coordinates (the
    two unit axes read at 0, the two others at the position's own coordinate). -/
theorem spread_apply (G : FVec Ideal S32x256 .f32) (i : S32x256x128x128.Idx) :
    broadcastInDim S32x256x128x128 ![0, 1, 2, 3] bcast_S32x256x1x1_S32x256x128x128_0_1_2_3
      (broadcastInDim S32x256x1x1 ![0, 1] bcast_S32x256_S32x256x1x1_0_1 G) i = G (ix2 (i 0) (i 1)) := by
  refine (broadcastInDim_apply _ bcast_S32x256x1x1_S32x256x128x128_0_1_2_3 _ i
    (ix4 (i 0) (i 1) (0 : Fin 1) (0 : Fin 1)) ?_).trans
    (broadcastInDim_apply _ bcast_S32x256_S32x256x1x1_0_1 G _ (ix2 (i 0) (i 1)) ?_)
  · intro a
    match a with
    | ⟨0, _⟩ => exact (if_neg (show ¬((32 : Nat) = 1) by decide)).symm
    | ⟨1, _⟩ => exact (if_neg (show ¬((256 : Nat) = 1) by decide)).symm
    | ⟨2, _⟩ => exact (if_pos (rfl : (1 : Nat) = 1)).symm
    | ⟨3, _⟩ => exact (if_pos (rfl : (1 : Nat) = 1)).symm
  · intro a
    match a with
    | ⟨0, _⟩ => exact (if_neg (show ¬((32 : Nat) = 1) by decide)).symm
    | ⟨1, _⟩ => exact (if_neg (show ¬((256 : Nat) = 1) by decide)).symm

/-- The last operation of the reference: the feature map times the spread gate is, position by position, the value
    times the gate of its (image, channel) pair. -/
theorem mul_spread (X : FVec Ideal S32x256x128x128 .f32) (G : FVec Ideal S32x256 .f32) :
    mulf X (broadcastInDim S32x256x128x128 ![0, 1, 2, 3] bcast_S32x256x1x1_S32x256x128x128_0_1_2_3
      (broadcastInDim S32x256x1x1 ![0, 1] bcast_S32x256_S32x256x1x1_0_1 G)) = Cert.Spec.scaled X G := by
  funext i
  show X i * broadcastInDim S32x256x128x128 ![0, 1, 2, 3] bcast_S32x256x1x1_S32x256x128x128_0_1_2_3
      (broadcastInDim S32x256x1x1 ![0, 1] bcast_S32x256_S32x256x1x1_0_1 G) i = X i * G (Cert.Spec.at2 (i 0).val (i 1).val)
  exact congrArg (fun g => X i * g) ((spread_apply G i).trans (congrArg G (at2_val i).symm))

end Cert.ReferenceIdeal.RefValue

end
-- ==== Proof.lean ====
/-
  The kernel is a squeeze-and-excitation block in two launches. The first launch pools the 32×256×128×128 feature map
  over its two spatial axes: per (image, channel) it adds up eight row-tiles of 16×128 entries in a running total
  and stores the total times 2⁻¹⁴. On the host the pooled 32×256 array goes through the gate — a product with `w1`, a
  clamp at zero, a product with `w2`, the logistic function. The second launch multiplies every entry of the feature
  map by its (image, channel) gate. The reference takes the mean as one sum over all 128×128 positions divided by
  16384, applies the same gate, and multiplies by the gate spread over the spatial axes.

  Over the extended reals the two agree entry by entry: a sum may be regrouped into eight tiles, dividing by 16384 is
  multiplying by 2⁻¹⁴ (both words are exact powers of two), the gate is the same chain of operations on both sides,
  and a product with a spread array is the product with the entry it spreads. No finiteness of the inputs is used.

  The three frames: each kernel program's from its whole run (every buffer followed from launch to return; the
  arguments are never written), the reference's from its run.
-/
import proofs.«104173_j50156628082926_1_alg».proof.Defs
import proofs.«104173_j50156628082926_1_alg».proof.Proof.Gen.Kernel
import proofs.«104173_j50156628082926_1_alg».proof.Proof.Gen.KernelIdeal
import proofs.«104173_j50156628082926_1_alg».proof.Proof.Gen.ReferenceIdeal
import proofs.«104173_j50156628082926_1_alg».proof.Proof.Gen.Pre_finite_inputs
import proofs.«104173_j50156628082926_1_alg».proof.Proof.WholeRunW
import proofs.«104173_j50156628082926_1_alg».proof.Proof.Gate
import proofs.«104173_j50156628082926_1_alg».proof.Proof.PoolValue
import proofs.«104173_j50156628082926_1_alg».proof.Proof.ScaleValue
import proofs.«104173_j50156628082926_1_alg».proof.Proof.RefValue
import Idealize.ShloMosaic.Adequacy
import Idealize.ShloMosaic.Init

noncomputable section

namespace Cert.Proof

open Idealize.ShloMosaic Idealize.ShloMosaic.TcCoe Idealize.SL.Sem

/-- The result both programs end with, from the three argument arrays: every entry of the feature map times the gate
    of its (image, channel) pooled mean. -/
def result (x : Cert.Spec.SX.Idx → EReal) (w1 : FVec Ideal Cert.KernelIdeal.S16x256 .f32) (w2 : FVec Ideal Cert.KernelIdeal.S256x16 .f32) :
    Cert.Spec.SX.Idx → EReal :=
  Cert.Spec.scaled x (Cert.KernelIdeal.Whole.gate (F := Ideal) (Cert.Spec.pooled x) w1 w2)

section Kernel

open Cert.KernelIdeal Cert.KernelIdeal.Whole

variable (m : (ℓ : Loc nD τ sig) → Buf (Elt Ideal) ℓ) (ρ : Dev nD → PrngReg)

/-- What the scaling launch's write-backs leave in the result array is `result` of the arguments: its blocks are the
    feature map's times the gate array's, the gate array is the gate of what the pooling launch left, and that is the
    pooled mean. -/
theorem kernel_value (c : Dev nD) :
    (Cert.KernelIdeal.Scale.dat (F := Ideal) (entry1 m ρ) c).arrAt 2 cfg1.N
      = result (m ((c : Thread nD τ).loc main_arg0)) (m ((c : Thread nD τ).loc main_arg1)) (m ((c : Thread nD τ).loc main_arg2)) := by
  rw [Cert.KernelIdeal.Scale.final]
  show Cert.Spec.scaled (held4 m ρ c (Proc.devRef .tc main_arg0)) (held4 m ρ c (Proc.devRef .tc main_v9)) = _
  rw [held4_x, gate_read, held1_arr m ρ c 1, Cert.KernelIdeal.Pool.final]
  rfl

/-- The idealized kernel's run, its result array named. -/
theorem kernel_run : θ_run (defs (F := Ideal)) (onTc (τ := τ) (main (F := Ideal))) ⟨m, fun _ => 0, ρ⟩ (fun r => ∀ c : Dev nD,
      r.2.mem ((c.tc : Thread nD τ).loc main_v10) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (kernel_value m ρ c), (h c).2⟩) (run_result (F := Ideal) m ρ)

end Kernel

/-! ## The claims -/

theorem frame_kernel : Cert.frame_Kernel := fun m ρ _ => Cert.Kernel.Whole.frame (F := Bits) m ρ
theorem frame_kernelIdeal : Cert.frame_KernelIdeal := fun m ρ _ => Cert.KernelIdeal.Whole.frame (F := Ideal) m ρ
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: the ideal pass rewrote nothing. -/
theorem preserves : Cert.preserves_Kernel_KernelIdeal := trivial

/-- From memories agreeing on the three arguments both programs end with `result` of them. -/
theorem algebraic : Cert.algebraic_KernelIdeal_ReferenceIdeal := by
  intro m ρ m' ρ' _ hagree
  refine ⟨fun c => result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  rw [Cert.ReferenceIdeal.RefValue.mul_spread, Cert.ReferenceIdeal.RefValue.mean_read]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
